-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : IVec S1x1600000 32 := (extractStridedSlice S1x1600000 ![0, 0] · slices_S2x1600000_S1x1600000_0_0) main_arg1
  let main_v5 : IVec S1600000 32 := shapeCast S1600000 main_v4 shapeCasts_S1x1600000_S1600000
  let main_c_0 : IVec S_ 32 := constantI S_ 32 4294867296#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![0, 0] · slices_S2x1600000_S1x1600000_0_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S10000x128 : Shape := ⟨2, ![10000, 128]⟩
abbrev S10000x1 : Shape := ⟨2, ![10000, 1]⟩
abbrev S1x100000x128 : Shape := ⟨3, ![1, 100000, 128]⟩
abbrev S4x100000x128 : Shape := ⟨3, ![4, 100000, 128]⟩

abbrev nBuf : Space → Nat
  | .hbm => 108
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1, .i32⟩
  | .hbm, ⟨28, _⟩ => ⟨S_, .i32⟩
  | .hbm, ⟨29, _⟩ => ⟨S1600000x1, .i32⟩
  | .hbm, ⟨30, _⟩ => ⟨S1600000x1, .i1⟩
  | .hbm, ⟨31, _⟩ => ⟨S1x1, .i32⟩
  | .hbm, ⟨32, _⟩ => ⟨S1600000x1, .i32⟩
  | .hbm, ⟨33, _⟩ => ⟨S1600000x1, .i1⟩
  | .hbm, ⟨34, _⟩ => ⟨S1600000x1, .i1⟩
  | .hbm, ⟨35, _⟩ => ⟨S_, .i1⟩
  | .hbm, ⟨36, _⟩ => ⟨S1600000, .i1⟩
  | .hbm, ⟨37, _⟩ => ⟨S1600000x128, .f32⟩
  | .hbm, ⟨38, _⟩ => ⟨S1600000x128, .i1⟩
  | .hbm, ⟨39, _⟩ => ⟨S_, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x128, .f32⟩
  | .hbm, ⟨66, _⟩ => ⟨S1600000x128, .i1⟩
  | .hbm, ⟨67, _⟩ => ⟨S_, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1, .i32⟩
  | .hbm, ⟨84, _⟩ => ⟨S_, .i32⟩
  | .hbm, ⟨85, _⟩ => ⟨S1600000x1, .i32⟩
  | .hbm, ⟨86, _⟩ => ⟨S1600000x1, .i1⟩
  | .hbm, ⟨87, _⟩ => ⟨S1x1, .i32⟩
  | .hbm, ⟨88, _⟩ => ⟨S1600000x1, .i32⟩
  | .hbm, ⟨89, _⟩ => ⟨S1600000x1, .i1⟩
  | .hbm, ⟨90, _⟩ => ⟨S1600000x1, .i1⟩
  | .hbm, ⟨91, _⟩ => ⟨S_, .i1⟩
  | .hbm, ⟨92, _⟩ => ⟨S1600000, .i1⟩
  | .hbm, ⟨93, _⟩ => ⟨S1600000x128, .f32⟩
  | .hbm, ⟨94, _⟩ => ⟨S1600000x128, .i1⟩
  | .hbm, ⟨95, _⟩ => ⟨S_, .f32⟩
  | .hbm, ⟨96, _⟩ => ⟨S1600000x128, .f32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S100000x128, .f32⟩
  | .hbm, ⟨103, _⟩ => ⟨S1x100000x128, .f32⟩
  | .hbm, ⟨104, _⟩ => ⟨S1x100000x128, .f32⟩
  | .hbm, ⟨105, _⟩ => ⟨S1x100000x128, .f32⟩
  | .hbm, ⟨106, _⟩ => ⟨S1x100000x128, .f32⟩
  | .hbm, ⟨107, _⟩ => ⟨S4x100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x1, .f32⟩
  | .local _ .vmem, ⟨13, _⟩ => ⟨S10000x1, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .f32⟩
  | .local _ .vmem, ⟨21, _⟩ => ⟨S10000x1, .f32⟩
  | .local _ .vmem, ⟨22, _⟩ => ⟨S10000x128, .f32⟩
  | .local _ .vmem, ⟨23, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v18 : Ref sig .tc := ⟨.hbm, 69, rfl⟩
abbrev main_cst_4 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v23 : Ref sig .tc := ⟨.hbm, 97, rfl⟩
abbrev main_cst_5 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x100000x128 : Shape := ⟨3, ![1, 100000, 128]⟩
abbrev S4x100000x128 : Shape := ⟨3, ![4, 100000, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x100000x128, .f32⟩
  | .hbm, ⟨70, _⟩ => ⟨S1x100000x128, .f32⟩
  | .hbm, ⟨71, _⟩ => ⟨S1x100000x128, .f32⟩
  | .hbm, ⟨72, _⟩ => ⟨S1x100000x128, .f32⟩
  | .hbm, ⟨73, _⟩ => ⟨S4x100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.Region0.lean ====
/-
  The first combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.Kernel.Launch
import proofs.«421663_j70188355551855_1_alg».proof.Proof.Gen.Kernel.Skeleton
import proofs.«421663_j70188355551855_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.Kernel.Combine0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k0_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid0.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc0__combine_kernel i a1 h1 a2 h2 a3 h3 a4 h4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = stored (blockAt V c 0 t) (blockAt V c 1 t) (blockAt V c 2 t) := by dsimp only [dat]

theorem before_0 (c : Dev nD) (t : Fin cfg0.N) (d) : (dat V c).before 0 t d = blockAt V c 0 t :=
  held_0_of V (dat V c) (dat_A V c 0) (after_0 V c) t d
theorem before_1 (c : Dev nD) (t : Fin cfg0.N) (d) : (dat V c).before 1 t d = blockAt V c 1 t :=
  held_1_of V (dat V c) (dat_A V c 1) (after_1 V c) t d
theorem before_2 (c : Dev nD) (t : Fin cfg0.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `body_run` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid0.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact body_at V c t

end Cert.Kernel.Combine0

end
-- ==== Proof.K.Region1.lean ====
/-
  The second combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.Kernel.Launch
import proofs.«421663_j70188355551855_1_alg».proof.Proof.Gen.Kernel.Skeleton
import proofs.«421663_j70188355551855_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.Kernel.Combine1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k1_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid1.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) :
    (dat V c).after 3 t = stored (blockAt V c 0 t) (blockAt V c 1 t) (blockAt V c 2 t) := by dsimp only [dat]

theorem before_0 (c : Dev nD) (t : Fin cfg1.N) (d) : (dat V c).before 0 t d = blockAt V c 0 t :=
  held_0_of V (dat V c) (dat_A V c 0) (after_0 V c) t d
theorem before_1 (c : Dev nD) (t : Fin cfg1.N) (d) : (dat V c).before 1 t d = blockAt V c 1 t :=
  held_1_of V (dat V c) (dat_A V c 1) (after_1 V c) t d
theorem before_2 (c : Dev nD) (t : Fin cfg1.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so `body_run` applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid1.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact body_at V c t

end Cert.Kernel.Combine1

end
-- ==== Proof.K.Region2.lean ====
/-
  The third combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.Kernel.Launch
import proofs.«421663_j70188355551855_1_alg».proof.Proof.Gen.Kernel.Skeleton
import proofs.«421663_j70188355551855_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.Kernel.Combine2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k2_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid2.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc2__combine_kernel i a1 h1 a2 h2 a3 h3 a4 h4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec2 c
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blockAt V c 0 t := by dsimp only [dat]
theorem after_1 (c : Dev nD) (t : Fin cfg2.N) : (dat V c).after 1 t = blockAt V c 1 t := by dsimp only [dat]
theorem after_2 (c : Dev nD) (t : Fin cfg2.N) : (dat V c).after 2 t = blockAt V c 2 t := by dsimp only [dat]
theorem after_3 (c : Dev nD) (t : Fin cfg2.N) :
    (dat V c).after 3 t = stored (blockAt V c 0 t) (blockAt V c 1 t) (blockAt V c 2 t) := by dsimp only [dat]

theorem before_0 (c : Dev nD) (t : Fin cfg2.N) (d) : (dat V c).before 0 t d = blockAt V c 0 t :=
  held_0_of V (dat V c) (dat_A V c 0) (after_0 V c) t d
theorem before_1 (c : Dev nD) (t : Fin cfg2.N) (d) : (dat V c).before 1 t d = blockAt V c 1 t :=
  held_1_of V (dat V c) (dat_A V c 1) (after_1 V c) t d
theorem before_2 (c : Dev nD) (t : Fin cfg2.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so `body_run` applies; the invariant and what the
    core owes pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid2.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact body_at V c t

end Cert.Kernel.Combine2

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Run.lean ====
/-
  The kernel program's main function, followed from the launch to the return through one valuation of the core's
  unscoped buffers. Nothing here depends on how a float is read: the text serves the word-level program and its
  idealization alike.

  The main function is eleven items: three stretches of host operations (the reciprocal degrees, the first gather of
  source rows, the first scatter into target rows), the first combine region, two stretches (gather, scatter), the
  second region, two stretches, the third region, and the stretch that stacks the four layers. A stretch moves the
  valuation along the fold of its operations. A region replaces its four arrays by what its write-backs leave and
  keeps every other buffer. Between two items a core holds every unscoped buffer whole at the valuation, its generator
  register at some state, and owes nothing, so the items chain by reflexivity.

  `run_all`: every weakly fair execution ends, and every unscoped buffer of the final memory is at the last valuation.
  `frame`: the two arguments end as launched, no item writing either.
-/
import proofs.«421663_j70188355551855_1_alg».proof.Proof.Gen.Kernel.Regions
import proofs.«421663_j70188355551855_1_alg».proof.Proof.K.Region0
import proofs.«421663_j70188355551855_1_alg».proof.Proof.K.Region1
import proofs.«421663_j70188355551855_1_alg».proof.Proof.K.Region2
import proofs.«421663_j70188355551855_1_alg».proof.Proof.LibRegionHeld

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuation at each boundary -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the reciprocal degrees. -/
abbrev W1 : Dev nD → Valuation τ sig (Elt F) := fun c => StableHlo.after hostOps0 (W0 m c)
/-- After the first gather of source rows. -/
abbrev W2 : Dev nD → Valuation τ sig (Elt F) := fun c => StableHlo.after hostOps0_1 (W1 m c)
/-- After the first scatter into target rows: the first region's entry. -/
abbrev W3 : Dev nD → Valuation τ sig (Elt F) := fun c => StableHlo.after hostOps0_2 (W2 m c)
/-- At the first region's exit: its arrays at what the write-backs leave, every other buffer as entered. -/
def W4 (c : Dev nD) : Valuation τ sig (Elt F) :=
  Pipeline.withArrays spec0 c (W3 m c) fun w => (Combine0.dat (atRefs (W3 m)) c).arrAt w cfg0.N
abbrev W5 : Dev nD → Valuation τ sig (Elt F) := fun c => StableHlo.after hostOps1 (W4 m c)
/-- The second region's entry. -/
abbrev W6 : Dev nD → Valuation τ sig (Elt F) := fun c => StableHlo.after hostOps1_1 (W5 m c)
def W7 (c : Dev nD) : Valuation τ sig (Elt F) :=
  Pipeline.withArrays spec1 c (W6 m c) fun w => (Combine1.dat (atRefs (W6 m)) c).arrAt w cfg1.N
abbrev W8 : Dev nD → Valuation τ sig (Elt F) := fun c => StableHlo.after hostOps2 (W7 m c)
/-- The third region's entry. -/
abbrev W9 : Dev nD → Valuation τ sig (Elt F) := fun c => StableHlo.after hostOps2_1 (W8 m c)
def W10 (c : Dev nD) : Valuation τ sig (Elt F) :=
  Pipeline.withArrays spec2 c (W9 m c) fun w => (Combine2.dat (atRefs (W9 m)) c).arrAt w cfg2.N
/-- After the four layers are stacked: the return. -/
abbrev W11 : Dev nD → Valuation τ sig (Elt F) := fun c => StableHlo.after hostOps3 (W10 m c)

theorem W4_arr (c : Dev nD) (w : Fin cfg0.W) :
    W4 m c (Proc.devRef .tc (Pipeline.arrRef spec0 w)) = (Combine0.dat (atRefs (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W7_arr (c : Dev nD) (w : Fin cfg1.W) :
    W7 m c (Proc.devRef .tc (Pipeline.arrRef spec1 w)) = (Combine1.dat (atRefs (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W10_arr (c : Dev nD) (w : Fin cfg2.W) :
    W10 m c (Proc.devRef .tc (Pipeline.arrRef spec2 w)) = (Combine2.dat (atRefs (W9 m)) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb

/-! ## The proof data family and the segments -/

/-- Every region's proof data, each at its entry valuation. -/
def pdats : (p : Fin 3) → (c : Dev nD) → Dat τ (Elt F) Unit ℕ (UR sig nD τ) ℕ (Pipeline.pin (pcfgs (F := F)) adm p) c
  | ⟨0, _⟩ => fun c => Combine0.dat (atRefs (W3 m)) c
  | ⟨1, _⟩ => fun c => Combine1.dat (atRefs (W6 m)) c
  | ⟨2, _⟩ => fun c => Combine2.dat (atRefs (W9 m)) c

abbrev 𝒱₀ : Variants := Variants.none
/-- No core owes another anything: no level is assigned. -/
abbrev L : GSem nD τ sig → Finset Unit := fun _ => ∅
abbrev lv : GSem nD τ sig → Unit → ℕ := fun _ _ => 0

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := UR sig nD τ))

set_option backward.isDefEq.respectTransparency.types false in
/-- The first region, from the valuation after the first scatter to the one with its output written. -/
def reg0 : RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => Combine0.body_obligation (atRefs (W3 m)) c)
    (fun _ _ => rfl) (fun _ _ => rfl) (fun _ => rfl)
    (W3 m) (W4 m)
    (fun _ _ => rfl)
    (fun c w => (W4_arr m c w).symm)
    (fun c b hb => W4_of_ne m c b fun w e => hb (Finset.mem_image.mpr ⟨w, Finset.mem_univ _, e⟩))
    (fun _ => .rfl) (fun _ => .rfl)

set_option backward.isDefEq.respectTransparency.types false in
/-- The second region. -/
def reg1 : RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => Combine1.body_obligation (atRefs (W6 m)) c)
    (fun _ _ => rfl) (fun _ _ => rfl) (fun _ => rfl)
    (W6 m) (W7 m)
    (fun _ _ => rfl)
    (fun c w => (W7_arr m c w).symm)
    (fun c b hb => W7_of_ne m c b fun w e => hb (Finset.mem_image.mpr ⟨w, Finset.mem_univ _, e⟩))
    (fun _ => .rfl) (fun _ => .rfl)

set_option backward.isDefEq.respectTransparency.types false in
/-- The third region. -/
def reg2 : RegionSeg (pcfgs (F := F)) adm (pdats m) () defs₀ 𝒱₀ L lv 2 :=
  Pipeline.RegionSeg.ofHeld (pcfgs (F := F)) adm (pdats m) defs₀ 𝒱₀ L lv 2
    launch2.win launch2.block_pos launch2.arr_whole launch2.stage_whole
    (fun c => Pipeline.emp_prefHeld_of_no_table _ rfl c _ _)
    (fun c => Combine2.body_obligation (atRefs (W9 m)) c)
    (fun _ _ => rfl) (fun _ _ => rfl) (fun _ => rfl)
    (W9 m) (W10 m)
    (fun _ _ => rfl)
    (fun c w => (W10_arr m c w).symm)
    (fun c b hb => W10_of_ne m c b fun w e => hb (Finset.mem_image.mpr ⟨w, Finset.mem_univ _, e⟩))
    (fun _ => .rfl) (fun _ => .rfl)

/-- The main function's eleven items in order. -/
abbrev segs : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation, the generator
    register at some state. -/
abbrev Tₙ (c : Dev nD) : sProp 𝕄 :=
  iprop(StableHlo.held (c : Thread nD τ) (Pipeline.ucRefs τ sig) (W11 m c) ∗ ∃ r, prngReg c r)

/-- The thread state after the last stretch is the last thread state beside a core that owes nothing. -/
theorem last_link (c : Dev nD) :
    (Pipeline.heldIdle (U := UR sig nD τ) (W11 m) c : sProp 𝕄)
      ⊢ iprop(Tₙ m c ∗ ∃ W, owes (c.tc : Thread nD τ) (0 : CellTallies nD τ sig Unit) W) := by
  iintro ⟨Hh, Hp, Ho⟩
  isplitl [Hh Hp]
  · isplitl [Hh]; · iexact Hh
    iexact Hp
  iexact Ho

/-! ## The run -/

set_option backward.isDefEq.respectTransparency.types false in
/-- From any memory with zero counters every weakly fair execution of the main function ends, nothing faulting, and
    every unscoped buffer of the final memory is at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (U := UR sig nD τ) (W0 m)) (Tₙ := Tₙ m)
    (hch := fun c => ⟨.rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## The arguments end as launched -/

/-- No item writes the node features. -/
theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps3 _ hostOps3_writes (by decide)
    _ = W9 m c (Proc.devRef .tc main_arg0) := W10_of_ne m c main_arg0 (by decide)
    _ = W8 m c (Proc.devRef .tc main_arg0) := StableHlo.after_of_writes_sub hostOps2_1 _ hostOps2_1_writes (by decide)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) :=
        (W4_arr m c 1).trans (((Combine0.dat (atRefs (W3 m)) c).arrAt_in 1 rfl _).trans (Combine0.dat_A (atRefs (W3 m)) c 1))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- No item writes the edge list. -/
theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps3 _ hostOps3_writes (by decide)
    _ = W9 m c (Proc.devRef .tc main_arg1) := W10_of_ne m c main_arg1 (by decide)
    _ = W8 m c (Proc.devRef .tc main_arg1) := StableHlo.after_of_writes_sub hostOps2_1 _ hostOps2_1_writes (by decide)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- The frame: every weakly fair execution ends and the two arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W11_main_arg0 m c),
     (h c _ (mem_uc main_arg1 (by decide))).trans (W11_main_arg1 m c)⟩) (run_all m ρ)

end Cert.Kernel.Run

end
-- ==== Proof.KI.Region0.lean ====
/-
  The first combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.KernelIdeal.Launch
import proofs.«421663_j70188355551855_1_alg».proof.Proof.Gen.KernelIdeal.Skeleton
import proofs.«421663_j70188355551855_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.KernelIdeal.Combine0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k0_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid0.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc0__combine_kernel i a1 h1 a2 h2 a3 h3 a4 h4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = stored (blockAt V c 0 t) (blockAt V c 1 t) (blockAt V c 2 t) := by dsimp only [dat]

theorem before_0 (c : Dev nD) (t : Fin cfg0.N) (d) : (dat V c).before 0 t d = blockAt V c 0 t :=
  held_0_of V (dat V c) (dat_A V c 0) (after_0 V c) t d
theorem before_1 (c : Dev nD) (t : Fin cfg0.N) (d) : (dat V c).before 1 t d = blockAt V c 1 t :=
  held_1_of V (dat V c) (dat_A V c 1) (after_1 V c) t d
theorem before_2 (c : Dev nD) (t : Fin cfg0.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `body_run` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid0.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact body_at V c t

end Cert.KernelIdeal.Combine0

end
-- ==== Proof.KI.Region1.lean ====
/-
  The second combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.KernelIdeal.Launch
import proofs.«421663_j70188355551855_1_alg».proof.Proof.Gen.KernelIdeal.Skeleton
import proofs.«421663_j70188355551855_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.KernelIdeal.Combine1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k1_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid1.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) :
    (dat V c).after 3 t = stored (blockAt V c 0 t) (blockAt V c 1 t) (blockAt V c 2 t) := by dsimp only [dat]

theorem before_0 (c : Dev nD) (t : Fin cfg1.N) (d) : (dat V c).before 0 t d = blockAt V c 0 t :=
  held_0_of V (dat V c) (dat_A V c 0) (after_0 V c) t d
theorem before_1 (c : Dev nD) (t : Fin cfg1.N) (d) : (dat V c).before 1 t d = blockAt V c 1 t :=
  held_1_of V (dat V c) (dat_A V c 1) (after_1 V c) t d
theorem before_2 (c : Dev nD) (t : Fin cfg1.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so `body_run` applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid1.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact body_at V c t

end Cert.KernelIdeal.Combine1

end
-- ==== Proof.KI.Region2.lean ====
/-
  The third combine region of the layered mean aggregation, at a parameter `V`: the contents of the core's buffers
  when the region is entered.

  The region walks ten blocks of 10000 rows. At a block it holds three inputs: the aggregated neighbour rows
  (10000 x 128), the current node features (10000 x 128) and the reciprocal degree as a column (10000 x 1). It writes
  one output block, `(agg + h) * inv`, the column broadcast along the 128 features. Nothing the body reads depends on
  a value: every access is the whole block. So the body's run is the same at every point, and the proof data say: each
  input's buffer still holds its block after the body, and the output's holds the one stored piece.
-/
import proofs.«421663_j70188355551855_1_alg».proof.Proof.Gen.KernelIdeal.Launch
import proofs.«421663_j70188355551855_1_alg».proof.Proof.Gen.KernelIdeal.Skeleton
import proofs.«421663_j70188355551855_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 10000 rows: the structural look at a membership recurses once per row
set_option maxRecDepth 16384

noncomputable section

namespace Cert.KernelIdeal.Combine2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether or not the pipeline fetched there: an unfetched
    point has the block index of the point before. For any proof data over `V`'s arrays whose body leaves the block
    in place; the three input windows are uncut and never idle. -/
theorem held_0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 10000 x 128 block, and the whole 10000 x 1 column. -/
abbrev whole128 : Rect S10000x128 := Rect.unit (s := S10000x128) ![0, 0] S10000x128.size inb_S10000x128_S10000x128_0_0
abbrev whole1 : Rect S10000x1 := Rect.unit (s := S10000x1) ![0, 0] S10000x1.size inb_S10000x1_S10000x1_0_0

/-- The output buffer after the body: one store of the whole block, `(agg + h) * inv` of the three loaded blocks. -/
def stored (x0 : Vec F S10000x128 .f32) (x1 : Vec F S10000x128 .f32) (x2 : Vec F S10000x1 .f32) : Vec F S10000x128 .f32 :=
  View.canon [⟨whole128, k2_pay1 (View.ld x0 whole128) (View.ld x1 whole128) (View.ld x2 whole1)⟩]

/-- The one store covers the buffer. -/
theorem stored_cover (p0 : Vec F S10000x128 .f32) (y : S10000x128.Idx) :
    ∃ pc ∈ ([⟨whole128, p0⟩] : List (View.Piece (Elt F) S10000x128 .f32)), y ∈ pc.1.set :=
  View.cover_of_tiled [⟨whole128, p0⟩] S10000x128.size (by rfl) y

/-! ## The body's run -/

set_option maxHeartbeats 1000000 in
/-- On whole buffers, the three inputs at `x0`, `x1`, `x2` and the output at anything, the body runs to the end with the
    inputs as they were and the output at `stored x0 x1 x2`. -/
theorem body_run (c : Dev nD) (E : Set ℕ) (i : grid2.Coords)
    (a1 : Memref sig .tc .vmem S10000x128 .f32) (h1 : a1.IsWhole) (a2 : Memref sig .tc .vmem S10000x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S10000x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored x0 x1 x2)) -∗ K ⟨⟩))
      ⊢ wp frame (wpE (defs₀ (F := F)) Variants.none c none) E (cc2__combine_kernel i a1 h1 a2 h2 a3 h3 a4 h4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The region's proof data on core `c`: the arrays as entered; after the body each input's buffer at its block and
    the output's at `stored` of the three blocks; the invariant the scoped rest and the generator register, untouched;
    nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec2 c
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blockAt V c 0 t := by dsimp only [dat]
theorem after_1 (c : Dev nD) (t : Fin cfg2.N) : (dat V c).after 1 t = blockAt V c 1 t := by dsimp only [dat]
theorem after_2 (c : Dev nD) (t : Fin cfg2.N) : (dat V c).after 2 t = blockAt V c 2 t := by dsimp only [dat]
theorem after_3 (c : Dev nD) (t : Fin cfg2.N) :
    (dat V c).after 3 t = stored (blockAt V c 0 t) (blockAt V c 1 t) (blockAt V c 2 t) := by dsimp only [dat]

theorem before_0 (c : Dev nD) (t : Fin cfg2.N) (d) : (dat V c).before 0 t d = blockAt V c 0 t :=
  held_0_of V (dat V c) (dat_A V c 0) (after_0 V c) t d
theorem before_1 (c : Dev nD) (t : Fin cfg2.N) (d) : (dat V c).before 1 t d = blockAt V c 1 t :=
  held_1_of V (dat V c) (dat_A V c 1) (after_1 V c) t d
theorem before_2 (c : Dev nD) (t : Fin cfg2.N) (d) : (dat V c).before 2 t d = blockAt V c 2 t :=
  held_2_of V (dat V c) (dat_A V c 2) (after_2 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so `body_run` applies; the invariant and what the
    core owes pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid2.coords t) _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact body_at V c t

end Cert.KernelIdeal.Combine2

end
-- ==== Proof.KI.Run.lean ====
/-
  The kernel program's main function, followed from the launch to the return through one valuation of the core's
  unscoped buffers. Nothing here depends on how a float is read: the text serves the word-level program and its
  idealization alike.

  The main function is eleven items: three stretches of host operations (the reciprocal degrees, the first gather of
  source rows, the first scatter into target rows), the first combine region, two stretches (gather, scatter), the
  second region, two stretches, the third region, and the stretch that stacks the four layers. A stretch moves the
  valuation along the fold of its operations. A region replaces its four arrays by what its write-backs leave and
  keeps every other buffer. Between two items a core holds every unscoped buffer whole at the valuation, its generator
  register at some state, and owes nothing, so the items chain by reflexivity.

  `run_all`: every weakly fair execution ends, and every unscoped buffer of the final memory is at the last valuation.
  `frame`: the two arguments end as launched, no item writing either.
-/
import proofs.«421663_j70188355551855_1_alg».proof.Proof.Gen.KernelIdeal.Regions
import proofs.«421663_j70188355551855_1_alg».proof.Proof.KI.Region0
import proofs.«421663_j70188355551855_1_alg».proof.Proof.KI.Region1
import proofs.«421663_j70188355551855_1_alg».proof.Proof.KI.Region2
import proofs.«421663_j70188355551855_1_alg».proof.Proof.LibRegionHeld

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuation at each boundary -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the reciprocal degrees. -/
abbrev W1 : Dev nD → Valuation τ sig (Elt F) := fun c => StableHlo.after hostOps0 (W0 m c)
/-- After the first gather of source rows. -/
abbrev W2 : Dev nD → Valuation τ sig (Elt F) := fun c => StableHlo.after hostOps0_1 (W1 m c)
/-- After the first scatter into target rows: the first region's entry. -/
abbrev W3 : Dev nD → Valuation τ sig (Elt F) := fun c => StableHlo.after hostOps0_2 (W2 m c)
/-- At the first region's exit: its arrays at what the write-backs leave, every other buffer as entered. -/
def W4 (c : Dev nD) : Valuation τ sig (Elt F) :=
  Pipeline.withArrays spec0 c (W3 m c) fun w => (Combine0.dat (atRefs (W3 m)) c).arrAt w cfg0.N
abbrev W5 : Dev nD → Valuation τ sig (Elt F) := fun c => StableHlo.after hostOps1 (W4 m c)
/-- The second region's entry. -/
abbrev W6 : Dev nD → Valuation τ sig (Elt F) := fun c => StableHlo.after hostOps1_1 (W5 m c)
def W7 (c : Dev nD) : Valuation τ sig (Elt F) :=
  Pipeline.withArrays spec1 c (W6 m c) fun w => (Combine1.dat (atRefs (W6 m)) c).arrAt w cfg1.N
abbrev W8 : Dev nD → Valuation τ sig (Elt F) := fun c => StableHlo.after hostOps2 (W7 m c)
/-- The third region's entry. -/
abbrev W9 : Dev nD → Valuation τ sig (Elt F) := fun c => StableHlo.after hostOps2_1 (W8 m c)
def W10 (c : Dev nD) : Valuation τ sig (Elt F) :=
  Pipeline.withArrays spec2 c (W9 m c) fun w => (Combine2.dat (atRefs (W9 m)) c).arrAt w cfg2.N
/-- After the four layers are stacked: the return. -/
abbrev W11 : Dev nD → Valuation τ sig (Elt F) := fun c => StableHlo.after hostOps3 (W10 m c)

theorem W4_arr (c : Dev nD) (w : Fin cfg0.W) :
    W4 m c (Proc.devRef .tc (Pipeline.arrRef spec0 w)) = (Combine0.dat (atRefs (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W7_arr (c : Dev nD) (w : Fin cfg1.W) :
    W7 m c (Proc.devRef .tc (Pipeline.arrRef spec1 w)) = (Combine1.dat (atRefs (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W10_arr (c : Dev nD) (w : Fin cfg2.W) :
    W10 m c (Proc.devRef .tc (Pipeline.arrRef spec2 w)) = (Combine2.dat (atRefs (W9 m)) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb

/-! ## The proof data family and the segments -/

/-- Every region's proof data, each at its entry valuation. -/
def pdats : (p : Fin 3) → (c : Dev nD) → Dat τ (Elt F) Unit ℕ (UR sig nD τ) ℕ (Pipeline.pin (pcfgs (F := F)) adm p) c
  | ⟨0, _⟩ => fun c => Combine0.dat (atRefs (W3 m)) c
  | ⟨1, _⟩ => fun c => Combine1.dat (atRefs (W6 m)) c
  | ⟨2, _⟩ => fun c => Combine2.dat (atRefs (W9 m)) c

abbrev 𝒱₀ : Variants := Variants.none
/-- No core owes another anything: no level is assigned. -/
abbrev L : GSem nD τ sig → Finset Unit := fun _ => ∅
abbrev lv : GSem nD τ sig → Unit → ℕ := fun _ _ => 0

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := UR sig nD τ))

set_option backward.isDefEq.respectTransparency.types false in
/-- The first region, from the valuation after the first scatter to the one with its output written. -/
def reg0 : RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => Combine0.body_obligation (atRefs (W3 m)) c)
    (fun _ _ => rfl) (fun _ _ => rfl) (fun _ => rfl)
    (W3 m) (W4 m)
    (fun _ _ => rfl)
    (fun c w => (W4_arr m c w).symm)
    (fun c b hb => W4_of_ne m c b fun w e => hb (Finset.mem_image.mpr ⟨w, Finset.mem_univ _, e⟩))
    (fun _ => .rfl) (fun _ => .rfl)

set_option backward.isDefEq.respectTransparency.types false in
/-- The second region. -/
def reg1 : RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => Combine1.body_obligation (atRefs (W6 m)) c)
    (fun _ _ => rfl) (fun _ _ => rfl) (fun _ => rfl)
    (W6 m) (W7 m)
    (fun _ _ => rfl)
    (fun c w => (W7_arr m c w).symm)
    (fun c b hb => W7_of_ne m c b fun w e => hb (Finset.mem_image.mpr ⟨w, Finset.mem_univ _, e⟩))
    (fun _ => .rfl) (fun _ => .rfl)

set_option backward.isDefEq.respectTransparency.types false in
/-- The third region. -/
def reg2 : RegionSeg (pcfgs (F := F)) adm (pdats m) () defs₀ 𝒱₀ L lv 2 :=
  Pipeline.RegionSeg.ofHeld (pcfgs (F := F)) adm (pdats m) defs₀ 𝒱₀ L lv 2
    launch2.win launch2.block_pos launch2.arr_whole launch2.stage_whole
    (fun c => Pipeline.emp_prefHeld_of_no_table _ rfl c _ _)
    (fun c => Combine2.body_obligation (atRefs (W9 m)) c)
    (fun _ _ => rfl) (fun _ _ => rfl) (fun _ => rfl)
    (W9 m) (W10 m)
    (fun _ _ => rfl)
    (fun c w => (W10_arr m c w).symm)
    (fun c b hb => W10_of_ne m c b fun w e => hb (Finset.mem_image.mpr ⟨w, Finset.mem_univ _, e⟩))
    (fun _ => .rfl) (fun _ => .rfl)

/-- The main function's eleven items in order. -/
abbrev segs : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation, the generator
    register at some state. -/
abbrev Tₙ (c : Dev nD) : sProp 𝕄 :=
  iprop(StableHlo.held (c : Thread nD τ) (Pipeline.ucRefs τ sig) (W11 m c) ∗ ∃ r, prngReg c r)

/-- The thread state after the last stretch is the last thread state beside a core that owes nothing. -/
theorem last_link (c : Dev nD) :
    (Pipeline.heldIdle (U := UR sig nD τ) (W11 m) c : sProp 𝕄)
      ⊢ iprop(Tₙ m c ∗ ∃ W, owes (c.tc : Thread nD τ) (0 : CellTallies nD τ sig Unit) W) := by
  iintro ⟨Hh, Hp, Ho⟩
  isplitl [Hh Hp]
  · isplitl [Hh]; · iexact Hh
    iexact Hp
  iexact Ho

/-! ## The run -/

set_option backward.isDefEq.respectTransparency.types false in
/-- From any memory with zero counters every weakly fair execution of the main function ends, nothing faulting, and
    every unscoped buffer of the final memory is at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (U := UR sig nD τ) (W0 m)) (Tₙ := Tₙ m)
    (hch := fun c => ⟨.rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## The arguments end as launched -/

/-- No item writes the node features. -/
theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps3 _ hostOps3_writes (by decide)
    _ = W9 m c (Proc.devRef .tc main_arg0) := W10_of_ne m c main_arg0 (by decide)
    _ = W8 m c (Proc.devRef .tc main_arg0) := StableHlo.after_of_writes_sub hostOps2_1 _ hostOps2_1_writes (by decide)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) :=
        (W4_arr m c 1).trans (((Combine0.dat (atRefs (W3 m)) c).arrAt_in 1 rfl _).trans (Combine0.dat_A (atRefs (W3 m)) c 1))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- No item writes the edge list. -/
theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps3 _ hostOps3_writes (by decide)
    _ = W9 m c (Proc.devRef .tc main_arg1) := W10_of_ne m c main_arg1 (by decide)
    _ = W8 m c (Proc.devRef .tc main_arg1) := StableHlo.after_of_writes_sub hostOps2_1 _ hostOps2_1_writes (by decide)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- The frame: every weakly fair execution ends and the two arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W11_main_arg0 m c),
     (h c _ (mem_uc main_arg1 (by decide))).trans (W11_main_arg1 m c)⟩) (run_all m ρ)

end Cert.KernelIdeal.Run

end
-- ==== Proof.KI.TakeDefs.lean ====
/-
  The kernel's gather of source rows, as functions of the source indices: negative indices wrapped by the number of
  nodes, the wrapped indices as start indices, the per-edge range test, and the gather with its fill.
-/
import proofs.«421663_j70188355551855_1_alg».proof.Proof.Gen.KernelIdeal
import Idealize.ShloMosaic.PureOps

noncomputable section

namespace Cert.KernelIdeal.Take

open Cert.KernelIdeal Cert.KernelIdeal.Facts₀ Idealize.ShloMosaic

variable {F : FTy → Type} [FloatOps F]

/-- The source indices: row 0 of the edge list, as a vector of 1600000 words. -/
def src (e : IVec S2x1600000 32) : IVec S1600000 32 :=
  shapeCast S1600000 (extractStridedSlice S1x1600000 ![0, 0] e slices_S2x1600000_S1x1600000_0_0) shapeCasts_S1x1600000_S1600000

/-- A negative index counts from the end: it is moved up by the number of nodes. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped indices as the gather's start indices, one per edge. -/
def startIdx (s : IVec S1600000 32) : IVec S1600000x1 32 :=
  broadcastInDim S1600000x1 ![0] bcast_S1600000_S1600000x1_0 (wrapped s)

/-- Per edge: is the wrapped index a node, `0 ≤ i ≤ 99999`? -/
def inRange (s : IVec S1600000 32) : IVec S1600000 1 :=
  Host.reduce IntOp.andi
    (andi (cmpi .sge (startIdx s) (broadcastInDim S1600000x1 ![] bcast_S_S1600000x1 (constantI S_ 32 0#32)))
      (cmpi .sle (startIdx s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The kernel's gather of rows: the plain gather where the wrapped index is a node, the fill elsewhere. -/
def takeRows (h : FVec F S100000x128 .f32) (s : IVec S1600000 32) : FVec F S1600000x128 .f32 :=
  select (broadcastInDim S1600000x128 ![0] bcast_S1600000_S1600000x128_0 (inRange s))
    (Host.gather gather_S100000x128_S1600000x1_S1600000x128_1_0_n_n_0_1_1128 h (startIdx s))
    (broadcastInDim S1600000x128 ![] bcast_S_S1600000x128 (constant S_ .f32 0x7FC00000#32))

end Cert.KernelIdeal.Take

end
-- ==== Proof.KI.Stretches.lean ====
/-
  What each stretch of host operations of the kernel's main function writes, as a function of the valuation it starts
  from: the source and target indices and the reciprocal degree column (first stretch), a gather of source rows
  (the stretch before each scatter), a scatter of gathered rows into target rows (the stretch before each region),
  and the stack of the four layers (last stretch).
-/
import proofs.«421663_j70188355551855_1_alg».proof.Proof.Gen.KernelIdeal.Launch
import proofs.«421663_j70188355551855_1_alg».proof.Proof.KI.TakeDefs
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo

variable {F : FTy → Type} [FloatOps F]

/-- The target indices: row 1 of the edge list. -/
def dst (e : IVec S2x1600000 32) : IVec S1600000 32 :=
  shapeCast S1600000 (extractStridedSlice S1x1600000 ![1, 0] e slices_S2x1600000_S1x1600000_1_0) shapeCasts_S1x1600000_S1600000

/-- One over one plus the number of edges into each node. -/
def invDeg (e : IVec S2x1600000 32) : FVec F S100000 .f32 :=
  Host.divf (broadcastInDim S100000 ![] bcast_S_S100000 (constant S_ .f32 0x3F800000#32))
    (addf (Host.scatterAdd scatter_S100000_S1600000x1_S1600000_n_0_0_1
        (broadcastInDim S100000 ![] bcast_S_S100000 (constant S_ .f32 0x00000000#32))
        (broadcastInDim S1600000x1 ![0] bcast_S1600000_S1600000x1_0 (dst e))
        (broadcastInDim S1600000 ![] bcast_S_S1600000 (constant S_ .f32 0x3F800000#32)))
      (broadcastInDim S100000 ![] bcast_S_S100000 (constant S_ .f32 0x3F800000#32)))

/-- The reciprocal degrees as a column, one entry per node. -/
def invCol (e : IVec S2x1600000 32) : FVec F S100000x1 .f32 :=
  shapeCast S100000x1 (invDeg (F := F) e) shapeCasts_S100000_S100000x1

/-- Rows summed into their target nodes, from zero. -/
def scatterRows (d : IVec S1600000 32) (g : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) g

/-- Four layers of node features, one above the other. -/
def stacked (a b c d : FVec F S100000x128 .f32) : FVec F S4x100000x128 .f32 :=
  concatenate S4x100000x128 0
    [⟨S1x100000x128, broadcastInDim S1x100000x128 ![1, 2] bcast_S100000x128_S1x100000x128_1_2 a⟩,
     ⟨S1x100000x128, broadcastInDim S1x100000x128 ![1, 2] bcast_S100000x128_S1x100000x128_1_2 b⟩,
     ⟨S1x100000x128, broadcastInDim S1x100000x128 ![1, 2] bcast_S100000x128_S1x100000x128_1_2 c⟩,
     ⟨S1x100000x128, broadcastInDim S1x100000x128 ![1, 2] bcast_S100000x128_S1x100000x128_1_2 d⟩]
    concatenates_S1x100000x128_S1x100000x128_S1x100000x128_S1x100000x128_S4x100000x128_d0

variable (V : Valuation τ sig (Elt F))

/-! ## The first stretch -/

theorem first_src : after hostOps0 V (Proc.devRef .tc main_v1) = Take.src (V (Proc.devRef .tc main_arg1)) := by
  after_results
  rfl

theorem first_dst : after hostOps0 V (Proc.devRef .tc main_v3) = dst (V (Proc.devRef .tc main_arg1)) := by
  after_results
  rfl

theorem first_inv : after hostOps0 V (Proc.devRef .tc main_v12) = invCol (F := F) (V (Proc.devRef .tc main_arg1)) := by
  after_results
  rfl

/-! ## The gathers of source rows

The gather is an outlined function: its operations are stated over references that carry the type of the value they
hold, with the contents moved to the buffer's own type and back. At the literal references of a call the two types are
one, so the moves drop out. -/

/-- Contents moved to a typed reference's buffer type and back are the contents. -/
theorem ofBuf_toBuf {T : BufTy} (x : TRef sig T) (v : T.Contents (Elt F)) : x.ofBuf (x.toBuf v) = v := by
  obtain ⟨r, rfl, _, _⟩ := x
  rfl

/-! At a literal reference the buffer's type IS the value's, and the move is the identity. -/

theorem ofBuf_src (p q r) (v : main_v1.ty.Contents (Elt F)) :
    (TRef.of main_v1 p q r : TRef sig ⟨S1600000, .i32⟩).ofBuf v = v := eq_of_heq (cast_heq _ _)
theorem ofBuf_x (p q r) (v : main_arg0.ty.Contents (Elt F)) :
    (TRef.of main_arg0 p q r : TRef sig ⟨S100000x128, .f32⟩).ofBuf v = v := eq_of_heq (cast_heq _ _)
theorem ofBuf_h1 (p q r) (v : main_v17.ty.Contents (Elt F)) :
    (TRef.of main_v17 p q r : TRef sig ⟨S100000x128, .f32⟩).ofBuf v = v := eq_of_heq (cast_heq _ _)
theorem ofBuf_h2 (p q r) (v : main_v22.ty.Contents (Elt F)) :
    (TRef.of main_v22 p q r : TRef sig ⟨S100000x128, .f32⟩).ofBuf v = v := eq_of_heq (cast_heq _ _)
theorem toBuf_g0 (p q r) (v : (⟨S1600000x128, .f32⟩ : BufTy).Contents (Elt F)) :
    (TRef.of main_v13 p q r : TRef sig ⟨S1600000x128, .f32⟩).toBuf v = v := eq_of_heq (cast_heq _ _)
theorem toBuf_g1 (p q r) (v : (⟨S1600000x128, .f32⟩ : BufTy).Contents (Elt F)) :
    (TRef.of main_v18 p q r : TRef sig ⟨S1600000x128, .f32⟩).toBuf v = v := eq_of_heq (cast_heq _ _)
theorem toBuf_g2 (p q r) (v : (⟨S1600000x128, .f32⟩ : BufTy).Contents (Elt F)) :
    (TRef.of main_v23 p q r : TRef sig ⟨S1600000x128, .f32⟩).toBuf v = v := eq_of_heq (cast_heq _ _)

theorem take0 : after hostOps0_1 V (Proc.devRef .tc main_v13)
    = Take.takeRows (V (Proc.devRef .tc main_arg0)) (V (Proc.devRef .tc main_v1)) := by
  after_results_simp
  simp only [ofBuf_toBuf, ofBuf_src, ofBuf_x, ofBuf_h1, ofBuf_h2, toBuf_g0, toBuf_g1, toBuf_g2]
  unfold Take.takeRows Take.inRange Take.startIdx Take.wrapped
  rfl

theorem take1 : after hostOps1 V (Proc.devRef .tc main_v18)
    = Take.takeRows (V (Proc.devRef .tc main_v17)) (V (Proc.devRef .tc main_v1)) := by
  after_results_simp
  simp only [ofBuf_toBuf, ofBuf_src, ofBuf_x, ofBuf_h1, ofBuf_h2, toBuf_g0, toBuf_g1, toBuf_g2]
  unfold Take.takeRows Take.inRange Take.startIdx Take.wrapped
  rfl

theorem take2 : after hostOps2 V (Proc.devRef .tc main_v23)
    = Take.takeRows (V (Proc.devRef .tc main_v22)) (V (Proc.devRef .tc main_v1)) := by
  after_results_simp
  simp only [ofBuf_toBuf, ofBuf_src, ofBuf_x, ofBuf_h1, ofBuf_h2, toBuf_g0, toBuf_g1, toBuf_g2]
  unfold Take.takeRows Take.inRange Take.startIdx Take.wrapped
  rfl

/-! ## The scatters into target rows -/

theorem scatter0 : after hostOps0_2 V (Proc.devRef .tc main_v16)
    = scatterRows (V (Proc.devRef .tc main_v3)) (V (Proc.devRef .tc main_v13)) := by
  after_results
  rfl

theorem scatter1 : after hostOps1_1 V (Proc.devRef .tc main_v21)
    = scatterRows (V (Proc.devRef .tc main_v3)) (V (Proc.devRef .tc main_v18)) := by
  after_results
  rfl

theorem scatter2 : after hostOps2_1 V (Proc.devRef .tc main_v26)
    = scatterRows (V (Proc.devRef .tc main_v3)) (V (Proc.devRef .tc main_v23)) := by
  after_results
  rfl

/-! ## The stack -/

theorem stack : after hostOps3 V (Proc.devRef .tc main_v32)
    = stacked (V (Proc.devRef .tc main_arg0)) (V (Proc.devRef .tc main_v17)) (V (Proc.devRef .tc main_v22))
        (V (Proc.devRef .tc main_v27)) := by
  after_results
  rfl

end Cert.KernelIdeal.Host

end
-- ==== Proof.KI.Combine.lean ====
/-
  One layer's node update as a function of whole arrays: `(agg + h) * inv`, the reciprocal degree a column of one
  entry per node, broadcast along the 128 features. This is what a combine region leaves in its output array, and what
  the reference computes on the host with the column made from the degree vector by a broadcast instead of a reshape.
-/
import proofs.«421663_j70188355551855_1_alg».proof.Proof.Gen.KernelIdeal
import Idealize.ShloMosaic.Lib.ValueIdx
import Idealize.ShloMosaic.Lib.ValueLayout
import Idealize.ShloMosaic.Lib.Pipeline.Value

noncomputable section

namespace Cert.KernelIdeal.Spec

open Cert.KernelIdeal Cert.KernelIdeal.Facts₀ Idealize.ShloMosaic

variable {F : FTy → Type} [FloatOps F]

/-- A column of one entry per node broadcasts along the features. -/
theorem colBcast : S100000x1.BroadcastsInDim S100000x128 (![0, 1] : Fin 2 → Fin S100000x128.rank) := by decide
/-- A vector of one entry per node is a column. -/
theorem vecCol : S100000.BroadcastsInDim S100000x1 (![0] : Fin 1 → Fin S100000x1.rank) := by decide

/-- One layer's update of every node's features. -/
def combine (agg h : FVec F S100000x128 .f32) (inv : FVec F S100000x1 .f32) : FVec F S100000x128 .f32 :=
  mulf (addf agg h) (broadcastInDim S100000x128 ![0, 1] colBcast inv)

/-- At a node `p` and a feature `q`: the sum of the aggregated and the current feature, times the node's
    reciprocal degree. -/
theorem combine_apply (agg h : FVec F S100000x128 .f32) (inv : FVec F S100000x1 .f32) (p : Fin 100000) (q : Fin 128) :
    combine agg h inv (ValueIdx.ix2 p q)
      = FloatOps.mulf (FloatOps.addf (agg (ValueIdx.ix2 p q)) (h (ValueIdx.ix2 p q))) (inv (ValueIdx.ix2 p (0 : Fin 1))) := by
  -- The broadcast column at (p, q) is the column at (p, 0): axis 0 has extent 100000 ≠ 1 and keeps its coordinate,
  -- axis 1 has extent 1 and reads coordinate 0.
  have hb : broadcastInDim S100000x128 ![0, 1] colBcast inv (ValueIdx.ix2 p q) = inv (ValueIdx.ix2 p (0 : Fin 1)) :=
    broadcastInDim_apply ![0, 1] colBcast inv (ValueIdx.ix2 p q) (ValueIdx.ix2 p (0 : Fin 1)) (fun a => match a with
      | ⟨0, _⟩ => by show p.val = if (100000 : Nat) = 1 then 0 else p.val; rw [if_neg (by decide)]
      | ⟨1, _⟩ => by show (0 : Nat) = if (1 : Nat) = 1 then 0 else q.val; rw [if_pos rfl])
  -- Sum and product of arrays are taken entry by entry.
  show FloatOps.mulf (FloatOps.addf (agg (ValueIdx.ix2 p q)) (h (ValueIdx.ix2 p q)))
      (broadcastInDim S100000x128 ![0, 1] colBcast inv (ValueIdx.ix2 p q)) = _
  rw [hb]

/-- Reshaping a vector of one entry per node into a column is broadcasting it into one. -/
theorem column_eq (v : FVec F S100000 .f32) :
    shapeCast S100000x1 v shapeCasts_S100000_S100000x1 = broadcastInDim S100000x1 ![0] vecCol v := by
  funext i
  -- The column's second axis has extent 1, so its coordinate is 0.
  have hi1 : (i 1).val = 0 := by
    have e : (i 1).val < 1 := (i 1).isLt
    omega
  -- The reshape reads the vector at the same row-major position: row * 1 + 0 = row.
  have e1 : shapeCast S100000x1 v shapeCasts_S100000_S100000x1 i = v (ValueIdx.ix1 (i 0 : Fin 100000)) :=
    shapeCast_apply v shapeCasts_S100000_S100000x1 i (ValueIdx.ix1 (i 0 : Fin 100000)) (by
      rw [Shape.rowMajor_val_one, Shape.rowMajor_val_two]
      show (i 0).val = (i 0).val * 1 + (i 1).val
      omega)
  -- The broadcast along the new unit axis reads the vector at the row coordinate.
  have e2 : broadcastInDim S100000x1 ![0] vecCol v i = v (ValueIdx.ix1 (i 0 : Fin 100000)) :=
    broadcastInDim_apply ![0] vecCol v i (ValueIdx.ix1 (i 0 : Fin 100000)) (fun a => match a with
      | ⟨0, _⟩ => by show (i 0).val = if (100000 : Nat) = 1 then 0 else (i 0).val; rw [if_neg (by decide)])
  exact e1.trans e2.symm

end Cert.KernelIdeal.Spec

end
-- ==== Proof.KI.Array0.lean ====
/-
  What the first combine region leaves in its output array, as one function of the three arrays it reads.

  Point `t` of the grid writes back rows `10000 t … 10000 t + 9999` of the output, and what it writes there is
  `(agg + h) * inv` of the same rows of the inputs: the stored block at a row and a feature is the payload of the
  three loaded blocks at that row and feature, and a loaded block's entry is its array's entry `10000 t` rows further
  down. The ten blocks tile the 100000 rows, so the array after the region is `combine agg h inv` everywhere.
-/
import proofs.«421663_j70188355551855_1_alg».proof.Proof.KI.Region0
import proofs.«421663_j70188355551855_1_alg».proof.Proof.KI.Combine
import Idealize.ShloMosaic.Lib.Pipeline.Value
import Idealize.ShloMosaic.Lib.ValueIdx
import Idealize.ShloMosaic.Lib.ValueLayout

set_option maxRecDepth 16384

noncomputable section

namespace Cert.KernelIdeal.Combine0

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx (ix2 eq_ix2)

variable {F : FTy → Type} [FloatOps F]

variable (V : (c : Dev nD) → (b : Ref sig .tc) → Buf (Elt F) ((c : Thread nD τ).loc b))

/-! ## The payload at a row and a feature -/

/-- The two zero offsets of a whole-block rectangle are the zero function. -/
theorem zeroOffsets : (![0, 0] : Fin 2 → Nat) = fun _ => 0 := funext fun a => by fin_cases a <;> rfl

/-- A column of one entry per row, broadcast along the second axis, reads at `(p, q)` the column's entry at row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one store of the whole block leaves the payload of the three blocks as loaded whole. -/
theorem stored_eq (xa xh : Vec F S10000x128 .f32) (xv : Vec F S10000x1 .f32) :
    stored xa xh xv = k0_pay1 xa xh xv := by
  unfold stored
  rw [View.canon_unit_zero zeroOffsets]
  simp only [View.ld_unit_zero (S := S10000x128) zeroOffsets, View.ld_unit_zero (S := S10000x1) zeroOffsets]

/-- The payload at row `r` and feature `q`: the two blocks' entries there added, times the column's entry at row `r`.
    The identity shape casts drop wherever they stand. -/
theorem pay_apply (xa xh : Vec F S10000x128 .f32) (xv : Vec F S10000x1 .f32) (r : Fin 10000) (q : Fin 128) :
    k0_pay1 xa xh xv (ix2 r q)
      = FloatOps.mulf (FloatOps.addf (xa (ix2 r q)) (xh (ix2 r q))) (xv (ix2 r (0 : Fin 1))) := by
  unfold k0_pay1
  simp only [shapeCast_self]
  show FloatOps.mulf (FloatOps.addf (xa (ix2 r q)) (xh (ix2 r q)))
      (broadcastTo S10000x128 xv broadcasts_S10000x1_S10000x128 (ix2 r q)) = _
  exact congrArg _ (broadcastTo_column_apply xv broadcasts_S10000x1_S10000x128 r q)

/-! ## The blocks, entry by entry -/

/-- The block indices over the grid: every window's block at point `t` is block `(t, 0)` of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The aggregated rows' block at point `t`, at row `r` and feature `q`, is the array's entry at row `10000 t + r`. -/
theorem blockAgg_apply (c : Dev nD) (t : Fin cfg0.N) (r : Fin 10000) (q : Fin 128) (p : Fin 100000)
    (hp : p.val = 10000 * t.val + r.val) :
    (blockAt V c 0 t : Vec F S10000x128 .f32) (ix2 r q)
      = (V c (Pipeline.arrRef spec0 0) : S100000x128.Idx → Elt F .f32) (ix2 p q) := by
  obtain ⟨er, ec, -⟩ := idx_facts t
  unfold blockAt
  rw [View.read_apply]
  show V c (Pipeline.arrRef spec0 0) (((cfg0.win 0).blk t).view.emb (ix2 r q)) = V c (Pipeline.arrRef spec0 0) (ix2 p q)
  congr 1
  funext a
  apply Fin.ext
  match a with
  | ⟨0, _⟩ => show win0_0.index t (0 : Fin 2) * 10000 + 1 * r.val = p.val; rw [er, hp]; omega
  | ⟨1, _⟩ => show win0_0.index t (1 : Fin 2) * 128 + 1 * q.val = q.val; rw [ec]; omega

/-- The current features' block likewise. -/
theorem blockFeat_apply (c : Dev nD) (t : Fin cfg0.N) (r : Fin 10000) (q : Fin 128) (p : Fin 100000)
    (hp : p.val = 10000 * t.val + r.val) :
    (blockAt V c 1 t : Vec F S10000x128 .f32) (ix2 r q)
      = (V c (Pipeline.arrRef spec0 1) : S100000x128.Idx → Elt F .f32) (ix2 p q) := by
  obtain ⟨-, -, er, ec, -⟩ := idx_facts t
  unfold blockAt
  rw [View.read_apply]
  show V c (Pipeline.arrRef spec0 1) (((cfg0.win 1).blk t).view.emb (ix2 r q)) = V c (Pipeline.arrRef spec0 1) (ix2 p q)
  congr 1
  funext a
  apply Fin.ext
  match a with
  | ⟨0, _⟩ => show win0_1.index t (0 : Fin 2) * 10000 + 1 * r.val = p.val; rw [er, hp]; omega
  | ⟨1, _⟩ => show win0_1.index t (1 : Fin 2) * 128 + 1 * q.val = q.val; rw [ec]; omega

/-- The reciprocal degrees' block is a column: its entry at row `r` is the array's at row `10000 t + r`. -/
theorem blockInv_apply (c : Dev nD) (t : Fin cfg0.N) (r : Fin 10000) (p : Fin 100000)
    (hp : p.val = 10000 * t.val + r.val) :
    (blockAt V c 2 t : Vec F S10000x1 .f32) (ix2 r (0 : Fin 1))
      = (V c (Pipeline.arrRef spec0 2) : S100000x1.Idx → Elt F .f32) (ix2 p (0 : Fin 1)) := by
  obtain ⟨-, -, -, -, er, ec, -⟩ := idx_facts t
  unfold blockAt
  rw [View.read_apply]
  show V c (Pipeline.arrRef spec0 2) (((cfg0.win 2).blk t).view.emb (ix2 r (0 : Fin 1))) = V c (Pipeline.arrRef spec0 2) (ix2 p (0 : Fin 1))
  congr 1
  funext a
  apply Fin.ext
  match a with
  | ⟨0, _⟩ => show win0_2.index t (0 : Fin 2) * 10000 + 1 * r.val = p.val; rw [er, hp]; omega
  | ⟨1, _⟩ => show win0_2.index t (1 : Fin 2) * 1 + 1 * 0 = 0; rw [ec]

/-! ## What a point writes back -/

/-- Point `t` writes back block `t` of the layer's update of the three arrays. -/
theorem flushed_eq (c : Dev nD) (t : Fin cfg0.N) :
    (dat V c).flushed 3 t = ((cfg0.win 3).blk t).view.read (Elt F)
      (Spec.combine (V c (Pipeline.arrRef spec0 0)) (V c (Pipeline.arrRef spec0 1)) (V c (Pipeline.arrRef spec0 2))) := by
  show (cfg0.win 3).cut (grid0.coords t) ((dat V c).after 3 t) = _
  rw [after_3]
  obtain ⟨-, -, -, -, -, -, er, ec⟩ := idx_facts t
  have ht : t.val < 10 := lt_of_lt_of_eq t.isLt N_0
  funext j
  obtain ⟨r, q, rfl⟩ : ∃ (r : Fin 10000) (q : Fin 128), j = ix2 r q := ⟨j 0, j 1, eq_ix2 j⟩
  have hp : 10000 * t.val + r.val < 100000 := by have := r.isLt; omega
  -- the block's row `r` lies under row `10000 t + r` of the array
  have hemb : ((cfg0.win 3).blk t).view.emb (ix2 r q) = (ix2 (⟨10000 * t.val + r.val, hp⟩ : Fin 100000) q : S100000x128.Idx) := by
    funext a
    apply Fin.ext
    match a with
    | ⟨0, _⟩ => show win0_3.index t (0 : Fin 2) * 10000 + 1 * r.val = 10000 * t.val + r.val; rw [er]; omega
    | ⟨1, _⟩ => show win0_3.index t (1 : Fin 2) * 128 + 1 * q.val = q.val; rw [ec]; omega
  rw [View.read_apply]
  show stored (blockAt V c 0 t) (blockAt V c 1 t) (blockAt V c 2 t) (ix2 r q)
    = Spec.combine (V c (Pipeline.arrRef spec0 0)) (V c (Pipeline.arrRef spec0 1)) (V c (Pipeline.arrRef spec0 2))
        (((cfg0.win 3).blk t).view.emb (ix2 r q))
  rw [hemb, Spec.combine_apply]
  refine (congrFun (stored_eq (blockAt V c 0 t) (blockAt V c 1 t) (blockAt V c 2 t)) (ix2 r q)).trans ?_
  refine (pay_apply (blockAt V c 0 t) (blockAt V c 1 t) (blockAt V c 2 t) r q).trans ?_
  exact congrArg₂ FloatOps.mulf
    (congrArg₂ FloatOps.addf (blockAgg_apply V c t r q ⟨_, hp⟩ rfl) (blockFeat_apply V c t r q ⟨_, hp⟩ rfl))
    (blockInv_apply V c t r ⟨_, hp⟩ rfl)

/-! ## The ten blocks tile the rows -/

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole (Pipeline.arrRef spec0 3)).slice (win0_3.rect t)).set ↔ _
  rw [View.set_slice_whole, Rect.mem_set_unit]
  exact Iff.rfl

/-- Row `p` of the array is in the block of the point `p / 10000`, which writes it back. -/
theorem cover (i : S100000x128.Idx) :
    ∃ t : Fin cfg0.N, (cfg0.win 3).flush t = true ∧ i ∈ ((cfg0.win 3).blk t).view.set := by
  have hrow : (i 0).val < 100000 := (i 0).isLt
  have hcol : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, -, -, er, ec⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [er, ht]; omega
  | ⟨1, _⟩ =>
    show win0_3.index t (1 : Fin 2) * 128 ≤ (i 1).val ∧ (i 1).val < win0_3.index t (1 : Fin 2) * 128 + 128
    rw [ec]; omega

/-! ## The array after the region -/

/-- The output array after the last point is the layer's update of the three input arrays as the region found them. -/
theorem arrAt_out (c : Dev nD) :
    (dat V c).arrAt 3 cfg0.N
      = Spec.combine (V c (Pipeline.arrRef spec0 0)) (V c (Pipeline.arrRef spec0 1)) (V c (Pipeline.arrRef spec0 2)) :=
  (dat V c).arrAt_eq_of_cover 3
    (Spec.combine (V c (Pipeline.arrRef spec0 0)) (V c (Pipeline.arrRef spec0 1)) (V c (Pipeline.arrRef spec0 2)))
    (fun t _ => flushed_eq V c t) cover

end Cert.KernelIdeal.Combine0

end
-- ==== Proof.KI.Array1.lean ====
/-
  What the second combine region leaves in its output array, as one function of the three arrays it reads.

  Point `t` of the grid writes back rows `10000 t … 10000 t + 9999` of the output, and what it writes there is
  `(agg + h) * inv` of the same rows of the inputs: the stored block at a row and a feature is the payload of the
  three loaded blocks at that row and feature, and a loaded block's entry is its array's entry `10000 t` rows further
  down. The ten blocks tile the 100000 rows, so the array after the region is `combine agg h inv` everywhere.
-/
import proofs.«421663_j70188355551855_1_alg».proof.Proof.KI.Region1
import proofs.«421663_j70188355551855_1_alg».proof.Proof.KI.Combine
import Idealize.ShloMosaic.Lib.Pipeline.Value
import Idealize.ShloMosaic.Lib.ValueIdx
import Idealize.ShloMosaic.Lib.ValueLayout

set_option maxRecDepth 16384

noncomputable section

namespace Cert.KernelIdeal.Combine1

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx (ix2 eq_ix2)

variable {F : FTy → Type} [FloatOps F]

variable (V : (c : Dev nD) → (b : Ref sig .tc) → Buf (Elt F) ((c : Thread nD τ).loc b))

/-! ## The payload at a row and a feature -/

/-- The two zero offsets of a whole-block rectangle are the zero function. -/
theorem zeroOffsets : (![0, 0] : Fin 2 → Nat) = fun _ => 0 := funext fun a => by fin_cases a <;> rfl

/-- A column of one entry per row, broadcast along the second axis, reads at `(p, q)` the column's entry at row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one store of the whole block leaves the payload of the three blocks as loaded whole. -/
theorem stored_eq (xa xh : Vec F S10000x128 .f32) (xv : Vec F S10000x1 .f32) :
    stored xa xh xv = k1_pay1 xa xh xv := by
  unfold stored
  rw [View.canon_unit_zero zeroOffsets]
  simp only [View.ld_unit_zero (S := S10000x128) zeroOffsets, View.ld_unit_zero (S := S10000x1) zeroOffsets]

/-- The payload at row `r` and feature `q`: the two blocks' entries there added, times the column's entry at row `r`.
    The identity shape casts drop wherever they stand. -/
theorem pay_apply (xa xh : Vec F S10000x128 .f32) (xv : Vec F S10000x1 .f32) (r : Fin 10000) (q : Fin 128) :
    k1_pay1 xa xh xv (ix2 r q)
      = FloatOps.mulf (FloatOps.addf (xa (ix2 r q)) (xh (ix2 r q))) (xv (ix2 r (0 : Fin 1))) := by
  unfold k1_pay1
  simp only [shapeCast_self]
  show FloatOps.mulf (FloatOps.addf (xa (ix2 r q)) (xh (ix2 r q)))
      (broadcastTo S10000x128 xv broadcasts_S10000x1_S10000x128 (ix2 r q)) = _
  exact congrArg _ (broadcastTo_column_apply xv broadcasts_S10000x1_S10000x128 r q)

/-! ## The blocks, entry by entry -/

/-- The block indices over the grid: every window's block at point `t` is block `(t, 0)` of its array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The aggregated rows' block at point `t`, at row `r` and feature `q`, is the array's entry at row `10000 t + r`. -/
theorem blockAgg_apply (c : Dev nD) (t : Fin cfg1.N) (r : Fin 10000) (q : Fin 128) (p : Fin 100000)
    (hp : p.val = 10000 * t.val + r.val) :
    (blockAt V c 0 t : Vec F S10000x128 .f32) (ix2 r q)
      = (V c (Pipeline.arrRef spec1 0) : S100000x128.Idx → Elt F .f32) (ix2 p q) := by
  obtain ⟨er, ec, -⟩ := idx_facts t
  unfold blockAt
  rw [View.read_apply]
  show V c (Pipeline.arrRef spec1 0) (((cfg1.win 0).blk t).view.emb (ix2 r q)) = V c (Pipeline.arrRef spec1 0) (ix2 p q)
  congr 1
  funext a
  apply Fin.ext
  match a with
  | ⟨0, _⟩ => show win1_0.index t (0 : Fin 2) * 10000 + 1 * r.val = p.val; rw [er, hp]; omega
  | ⟨1, _⟩ => show win1_0.index t (1 : Fin 2) * 128 + 1 * q.val = q.val; rw [ec]; omega

/-- The current features' block likewise. -/
theorem blockFeat_apply (c : Dev nD) (t : Fin cfg1.N) (r : Fin 10000) (q : Fin 128) (p : Fin 100000)
    (hp : p.val = 10000 * t.val + r.val) :
    (blockAt V c 1 t : Vec F S10000x128 .f32) (ix2 r q)
      = (V c (Pipeline.arrRef spec1 1) : S100000x128.Idx → Elt F .f32) (ix2 p q) := by
  obtain ⟨-, -, er, ec, -⟩ := idx_facts t
  unfold blockAt
  rw [View.read_apply]
  show V c (Pipeline.arrRef spec1 1) (((cfg1.win 1).blk t).view.emb (ix2 r q)) = V c (Pipeline.arrRef spec1 1) (ix2 p q)
  congr 1
  funext a
  apply Fin.ext
  match a with
  | ⟨0, _⟩ => show win1_1.index t (0 : Fin 2) * 10000 + 1 * r.val = p.val; rw [er, hp]; omega
  | ⟨1, _⟩ => show win1_1.index t (1 : Fin 2) * 128 + 1 * q.val = q.val; rw [ec]; omega

/-- The reciprocal degrees' block is a column: its entry at row `r` is the array's at row `10000 t + r`. -/
theorem blockInv_apply (c : Dev nD) (t : Fin cfg1.N) (r : Fin 10000) (p : Fin 100000)
    (hp : p.val = 10000 * t.val + r.val) :
    (blockAt V c 2 t : Vec F S10000x1 .f32) (ix2 r (0 : Fin 1))
      = (V c (Pipeline.arrRef spec1 2) : S100000x1.Idx → Elt F .f32) (ix2 p (0 : Fin 1)) := by
  obtain ⟨-, -, -, -, er, ec, -⟩ := idx_facts t
  unfold blockAt
  rw [View.read_apply]
  show V c (Pipeline.arrRef spec1 2) (((cfg1.win 2).blk t).view.emb (ix2 r (0 : Fin 1))) = V c (Pipeline.arrRef spec1 2) (ix2 p (0 : Fin 1))
  congr 1
  funext a
  apply Fin.ext
  match a with
  | ⟨0, _⟩ => show win1_2.index t (0 : Fin 2) * 10000 + 1 * r.val = p.val; rw [er, hp]; omega
  | ⟨1, _⟩ => show win1_2.index t (1 : Fin 2) * 1 + 1 * 0 = 0; rw [ec]

/-! ## What a point writes back -/

/-- Point `t` writes back block `t` of the layer's update of the three arrays. -/
theorem flushed_eq (c : Dev nD) (t : Fin cfg1.N) :
    (dat V c).flushed 3 t = ((cfg1.win 3).blk t).view.read (Elt F)
      (Spec.combine (V c (Pipeline.arrRef spec1 0)) (V c (Pipeline.arrRef spec1 1)) (V c (Pipeline.arrRef spec1 2))) := by
  show (cfg1.win 3).cut (grid1.coords t) ((dat V c).after 3 t) = _
  rw [after_3]
  obtain ⟨-, -, -, -, -, -, er, ec⟩ := idx_facts t
  have ht : t.val < 10 := lt_of_lt_of_eq t.isLt N_1
  funext j
  obtain ⟨r, q, rfl⟩ : ∃ (r : Fin 10000) (q : Fin 128), j = ix2 r q := ⟨j 0, j 1, eq_ix2 j⟩
  have hp : 10000 * t.val + r.val < 100000 := by have := r.isLt; omega
  -- the block's row `r` lies under row `10000 t + r` of the array
  have hemb : ((cfg1.win 3).blk t).view.emb (ix2 r q) = (ix2 (⟨10000 * t.val + r.val, hp⟩ : Fin 100000) q : S100000x128.Idx) := by
    funext a
    apply Fin.ext
    match a with
    | ⟨0, _⟩ => show win1_3.index t (0 : Fin 2) * 10000 + 1 * r.val = 10000 * t.val + r.val; rw [er]; omega
    | ⟨1, _⟩ => show win1_3.index t (1 : Fin 2) * 128 + 1 * q.val = q.val; rw [ec]; omega
  rw [View.read_apply]
  show stored (blockAt V c 0 t) (blockAt V c 1 t) (blockAt V c 2 t) (ix2 r q)
    = Spec.combine (V c (Pipeline.arrRef spec1 0)) (V c (Pipeline.arrRef spec1 1)) (V c (Pipeline.arrRef spec1 2))
        (((cfg1.win 3).blk t).view.emb (ix2 r q))
  rw [hemb, Spec.combine_apply]
  refine (congrFun (stored_eq (blockAt V c 0 t) (blockAt V c 1 t) (blockAt V c 2 t)) (ix2 r q)).trans ?_
  refine (pay_apply (blockAt V c 0 t) (blockAt V c 1 t) (blockAt V c 2 t) r q).trans ?_
  exact congrArg₂ FloatOps.mulf
    (congrArg₂ FloatOps.addf (blockAgg_apply V c t r q ⟨_, hp⟩ rfl) (blockFeat_apply V c t r q ⟨_, hp⟩ rfl))
    (blockInv_apply V c t r ⟨_, hp⟩ rfl)

/-! ## The ten blocks tile the rows -/

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole (Pipeline.arrRef spec1 3)).slice (win1_3.rect t)).set ↔ _
  rw [View.set_slice_whole, Rect.mem_set_unit]
  exact Iff.rfl

/-- Row `p` of the array is in the block of the point `p / 10000`, which writes it back. -/
theorem cover (i : S100000x128.Idx) :
    ∃ t : Fin cfg1.N, (cfg1.win 3).flush t = true ∧ i ∈ ((cfg1.win 3).blk t).view.set := by
  have hrow : (i 0).val < 100000 := (i 0).isLt
  have hcol : (i 1).val < 128 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  obtain ⟨-, -, -, -, -, -, er, ec⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [er, ht]; omega
  | ⟨1, _⟩ =>
    show win1_3.index t (1 : Fin 2) * 128 ≤ (i 1).val ∧ (i 1).val < win1_3.index t (1 : Fin 2) * 128 + 128
    rw [ec]; omega

/-! ## The array after the region -/

/-- The output array after the last point is the layer's update of the three input arrays as the region found them. -/
theorem arrAt_out (c : Dev nD) :
    (dat V c).arrAt 3 cfg1.N
      = Spec.combine (V c (Pipeline.arrRef spec1 0)) (V c (Pipeline.arrRef spec1 1)) (V c (Pipeline.arrRef spec1 2)) :=
  (dat V c).arrAt_eq_of_cover 3
    (Spec.combine (V c (Pipeline.arrRef spec1 0)) (V c (Pipeline.arrRef spec1 1)) (V c (Pipeline.arrRef spec1 2)))
    (fun t _ => flushed_eq V c t) cover

end Cert.KernelIdeal.Combine1

end
-- ==== Proof.KI.Array2.lean ====
/-
  What the third combine region leaves in its output array, as one function of the three arrays it reads.

  Point `t` of the grid writes back rows `10000 t … 10000 t + 9999` of the output, and what it writes there is
  `(agg + h) * inv` of the same rows of the inputs: the stored block at a row and a feature is the payload of the
  three loaded blocks at that row and feature, and a loaded block's entry is its array's entry `10000 t` rows further
  down. The ten blocks tile the 100000 rows, so the array after the region is `combine agg h inv` everywhere.
-/
import proofs.«421663_j70188355551855_1_alg».proof.Proof.KI.Region2
import proofs.«421663_j70188355551855_1_alg».proof.Proof.KI.Combine
import Idealize.ShloMosaic.Lib.Pipeline.Value
import Idealize.ShloMosaic.Lib.ValueIdx
import Idealize.ShloMosaic.Lib.ValueLayout

set_option maxRecDepth 16384

noncomputable section

namespace Cert.KernelIdeal.Combine2

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx (ix2 eq_ix2)

variable {F : FTy → Type} [FloatOps F]

variable (V : (c : Dev nD) → (b : Ref sig .tc) → Buf (Elt F) ((c : Thread nD τ).loc b))

/-! ## The payload at a row and a feature -/

/-- The two zero offsets of a whole-block rectangle are the zero function. -/
theorem zeroOffsets : (![0, 0] : Fin 2 → Nat) = fun _ => 0 := funext fun a => by fin_cases a <;> rfl

/-- A column of one entry per row, broadcast along the second axis, reads at `(p, q)` the column's entry at row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one store of the whole block leaves the payload of the three blocks as loaded whole. -/
theorem stored_eq (xa xh : Vec F S10000x128 .f32) (xv : Vec F S10000x1 .f32) :
    stored xa xh xv = k2_pay1 xa xh xv := by
  unfold stored
  rw [View.canon_unit_zero zeroOffsets]
  simp only [View.ld_unit_zero (S := S10000x128) zeroOffsets, View.ld_unit_zero (S := S10000x1) zeroOffsets]

/-- The payload at row `r` and feature `q`: the two blocks' entries there added, times the column's entry at row `r`.
    The identity shape casts drop wherever they stand. -/
theorem pay_apply (xa xh : Vec F S10000x128 .f32) (xv : Vec F S10000x1 .f32) (r : Fin 10000) (q : Fin 128) :
    k2_pay1 xa xh xv (ix2 r q)
      = FloatOps.mulf (FloatOps.addf (xa (ix2 r q)) (xh (ix2 r q))) (xv (ix2 r (0 : Fin 1))) := by
  unfold k2_pay1
  simp only [shapeCast_self]
  show FloatOps.mulf (FloatOps.addf (xa (ix2 r q)) (xh (ix2 r q)))
      (broadcastTo S10000x128 xv broadcasts_S10000x1_S10000x128 (ix2 r q)) = _
  exact congrArg _ (broadcastTo_column_apply xv broadcasts_S10000x1_S10000x128 r q)

/-! ## The blocks, entry by entry -/

/-- The block indices over the grid: every window's block at point `t` is block `(t, 0)` of its array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The aggregated rows' block at point `t`, at row `r` and feature `q`, is the array's entry at row `10000 t + r`. -/
theorem blockAgg_apply (c : Dev nD) (t : Fin cfg2.N) (r : Fin 10000) (q : Fin 128) (p : Fin 100000)
    (hp : p.val = 10000 * t.val + r.val) :
    (blockAt V c 0 t : Vec F S10000x128 .f32) (ix2 r q)
      = (V c (Pipeline.arrRef spec2 0) : S100000x128.Idx → Elt F .f32) (ix2 p q) := by
  obtain ⟨er, ec, -⟩ := idx_facts t
  unfold blockAt
  rw [View.read_apply]
  show V c (Pipeline.arrRef spec2 0) (((cfg2.win 0).blk t).view.emb (ix2 r q)) = V c (Pipeline.arrRef spec2 0) (ix2 p q)
  congr 1
  funext a
  apply Fin.ext
  match a with
  | ⟨0, _⟩ => show win2_0.index t (0 : Fin 2) * 10000 + 1 * r.val = p.val; rw [er, hp]; omega
  | ⟨1, _⟩ => show win2_0.index t (1 : Fin 2) * 128 + 1 * q.val = q.val; rw [ec]; omega

/-- The current features' block likewise. -/
theorem blockFeat_apply (c : Dev nD) (t : Fin cfg2.N) (r : Fin 10000) (q : Fin 128) (p : Fin 100000)
    (hp : p.val = 10000 * t.val + r.val) :
    (blockAt V c 1 t : Vec F S10000x128 .f32) (ix2 r q)
      = (V c (Pipeline.arrRef spec2 1) : S100000x128.Idx → Elt F .f32) (ix2 p q) := by
  obtain ⟨-, -, er, ec, -⟩ := idx_facts t
  unfold blockAt
  rw [View.read_apply]
  show V c (Pipeline.arrRef spec2 1) (((cfg2.win 1).blk t).view.emb (ix2 r q)) = V c (Pipeline.arrRef spec2 1) (ix2 p q)
  congr 1
  funext a
  apply Fin.ext
  match a with
  | ⟨0, _⟩ => show win2_1.index t (0 : Fin 2) * 10000 + 1 * r.val = p.val; rw [er, hp]; omega
  | ⟨1, _⟩ => show win2_1.index t (1 : Fin 2) * 128 + 1 * q.val = q.val; rw [ec]; omega

/-- The reciprocal degrees' block is a column: its entry at row `r` is the array's at row `10000 t + r`. -/
theorem blockInv_apply (c : Dev nD) (t : Fin cfg2.N) (r : Fin 10000) (p : Fin 100000)
    (hp : p.val = 10000 * t.val + r.val) :
    (blockAt V c 2 t : Vec F S10000x1 .f32) (ix2 r (0 : Fin 1))
      = (V c (Pipeline.arrRef spec2 2) : S100000x1.Idx → Elt F .f32) (ix2 p (0 : Fin 1)) := by
  obtain ⟨-, -, -, -, er, ec, -⟩ := idx_facts t
  unfold blockAt
  rw [View.read_apply]
  show V c (Pipeline.arrRef spec2 2) (((cfg2.win 2).blk t).view.emb (ix2 r (0 : Fin 1))) = V c (Pipeline.arrRef spec2 2) (ix2 p (0 : Fin 1))
  congr 1
  funext a
  apply Fin.ext
  match a with
  | ⟨0, _⟩ => show win2_2.index t (0 : Fin 2) * 10000 + 1 * r.val = p.val; rw [er, hp]; omega
  | ⟨1, _⟩ => show win2_2.index t (1 : Fin 2) * 1 + 1 * 0 = 0; rw [ec]

/-! ## What a point writes back -/

/-- Point `t` writes back block `t` of the layer's update of the three arrays. -/
theorem flushed_eq (c : Dev nD) (t : Fin cfg2.N) :
    (dat V c).flushed 3 t = ((cfg2.win 3).blk t).view.read (Elt F)
      (Spec.combine (V c (Pipeline.arrRef spec2 0)) (V c (Pipeline.arrRef spec2 1)) (V c (Pipeline.arrRef spec2 2))) := by
  show (cfg2.win 3).cut (grid2.coords t) ((dat V c).after 3 t) = _
  rw [after_3]
  obtain ⟨-, -, -, -, -, -, er, ec⟩ := idx_facts t
  have ht : t.val < 10 := lt_of_lt_of_eq t.isLt N_2
  funext j
  obtain ⟨r, q, rfl⟩ : ∃ (r : Fin 10000) (q : Fin 128), j = ix2 r q := ⟨j 0, j 1, eq_ix2 j⟩
  have hp : 10000 * t.val + r.val < 100000 := by have := r.isLt; omega
  -- the block's row `r` lies under row `10000 t + r` of the array
  have hemb : ((cfg2.win 3).blk t).view.emb (ix2 r q) = (ix2 (⟨10000 * t.val + r.val, hp⟩ : Fin 100000) q : S100000x128.Idx) := by
    funext a
    apply Fin.ext
    match a with
    | ⟨0, _⟩ => show win2_3.index t (0 : Fin 2) * 10000 + 1 * r.val = 10000 * t.val + r.val; rw [er]; omega
    | ⟨1, _⟩ => show win2_3.index t (1 : Fin 2) * 128 + 1 * q.val = q.val; rw [ec]; omega
  rw [View.read_apply]
  show stored (blockAt V c 0 t) (blockAt V c 1 t) (blockAt V c 2 t) (ix2 r q)
    = Spec.combine (V c (Pipeline.arrRef spec2 0)) (V c (Pipeline.arrRef spec2 1)) (V c (Pipeline.arrRef spec2 2))
        (((cfg2.win 3).blk t).view.emb (ix2 r q))
  rw [hemb, Spec.combine_apply]
  refine (congrFun (stored_eq (blockAt V c 0 t) (blockAt V c 1 t) (blockAt V c 2 t)) (ix2 r q)).trans ?_
  refine (pay_apply (blockAt V c 0 t) (blockAt V c 1 t) (blockAt V c 2 t) r q).trans ?_
  exact congrArg₂ FloatOps.mulf
    (congrArg₂ FloatOps.addf (blockAgg_apply V c t r q ⟨_, hp⟩ rfl) (blockFeat_apply V c t r q ⟨_, hp⟩ rfl))
    (blockInv_apply V c t r ⟨_, hp⟩ rfl)

/-! ## The ten blocks tile the rows -/

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole (Pipeline.arrRef spec2 3)).slice (win2_3.rect t)).set ↔ _
  rw [View.set_slice_whole, Rect.mem_set_unit]
  exact Iff.rfl

/-- Row `p` of the array is in the block of the point `p / 10000`, which writes it back. -/
theorem cover (i : S100000x128.Idx) :
    ∃ t : Fin cfg2.N, (cfg2.win 3).flush t = true ∧ i ∈ ((cfg2.win 3).blk t).view.set := by
  have hrow : (i 0).val < 100000 := (i 0).isLt
  have hcol : (i 1).val < 128 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, er, ec⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [er, ht]; omega
  | ⟨1, _⟩ =>
    show win2_3.index t (1 : Fin 2) * 128 ≤ (i 1).val ∧ (i 1).val < win2_3.index t (1 : Fin 2) * 128 + 128
    rw [ec]; omega

/-! ## The array after the region -/

/-- The output array after the last point is the layer's update of the three input arrays as the region found them. -/
theorem arrAt_out (c : Dev nD) :
    (dat V c).arrAt 3 cfg2.N
      = Spec.combine (V c (Pipeline.arrRef spec2 0)) (V c (Pipeline.arrRef spec2 1)) (V c (Pipeline.arrRef spec2 2)) :=
  (dat V c).arrAt_eq_of_cover 3
    (Spec.combine (V c (Pipeline.arrRef spec2 0)) (V c (Pipeline.arrRef spec2 1)) (V c (Pipeline.arrRef spec2 2)))
    (fun t _ => flushed_eq V c t) cover

end Cert.KernelIdeal.Combine2

end
-- ==== Proof.KI.Value.lean ====
/-
  The idealized kernel's result as a function of its two arguments.

  Write `s`, `d` for the source and target indices (rows 0 and 1 of the edge list) and `inv` for the column of
  reciprocal degrees. One layer sends node features `h` to `combine (scatterRows d (takeRows h s)) h inv`: gather the
  source rows, sum them into their target nodes, add the node's own features, scale by the reciprocal degree. The
  main function applies the layer three times from the argument features and stacks the four arrays.

  The proof walks the valuation of `Run` from the launch to the return, one boundary at a time, carrying the buffers a
  later item still reads (`s`, `d`, `inv`, the argument features, each finished layer) through the items that do
  not write them: a stretch of host operations writes only its own result buffers, a region only its output array.
-/
import proofs.«421663_j70188355551855_1_alg».proof.Proof.KI.Run
import proofs.«421663_j70188355551855_1_alg».proof.Proof.KI.Stretches
import proofs.«421663_j70188355551855_1_alg».proof.Proof.KI.Combine
import proofs.«421663_j70188355551855_1_alg».proof.Proof.KI.Array0
import proofs.«421663_j70188355551855_1_alg».proof.Proof.KI.Array1
import proofs.«421663_j70188355551855_1_alg».proof.Proof.KI.Array2

set_option maxRecDepth 16384

noncomputable section

namespace Cert.KernelIdeal.Value

open Cert.KernelIdeal Cert.KernelIdeal.Gen Cert.KernelIdeal.Run
open Idealize.ShloMosaic Idealize.ShloMosaic.TcCoe
open Idealize.SL Idealize.SL.Sem

variable {F : FTy → Type} [FloatOps F]

/-! ## The kernel's function of its arguments -/

/-- One layer: gather source rows, sum into target nodes, add the node's own features, scale. -/
def layer (e : IVec S2x1600000 32) (h : FVec F S100000x128 .f32) : FVec F S100000x128 .f32 :=
  Spec.combine (Host.scatterRows (Host.dst e) (Take.takeRows h (Take.src e))) h (Host.invCol e)

/-- The argument features and three layers over them, stacked. -/
def result (x : FVec F S100000x128 .f32) (e : IVec S2x1600000 32) : FVec F S4x100000x128 .f32 :=
  Host.stacked x (layer e x) (layer e (layer e x)) (layer e (layer e (layer e x)))

variable (m : (ℓ : Loc nD τ sig) → Buf (Elt F) ℓ) (c : Dev nD)

/-- The arguments as launched. -/
abbrev X : FVec F S100000x128 .f32 := W0 m c (Proc.devRef .tc main_arg0)
abbrev E : IVec S2x1600000 32 := W0 m c (Proc.devRef .tc main_arg1)

/-! ## After the first stretch: the indices and the reciprocal degrees -/

theorem w1_src : W1 m c (Proc.devRef .tc main_v1) = Take.src (E m c) := Host.first_src _
theorem w1_dst : W1 m c (Proc.devRef .tc main_v3) = Host.dst (E m c) := Host.first_dst _
theorem w1_inv : W1 m c (Proc.devRef .tc main_v12) = Host.invCol (E m c) := Host.first_inv _
theorem w1_x : W1 m c (Proc.devRef .tc main_arg0) = X m c := StableHlo.after_of_writes_sub hostOps0 _ hostOps0_writes (by decide)

/-! ## The first layer -/

theorem w2_take : W2 m c (Proc.devRef .tc main_v13) = Take.takeRows (X m c) (Take.src (E m c)) :=
  (Host.take0 _).trans (by rw [w1_x, w1_src])
theorem w2_src : W2 m c (Proc.devRef .tc main_v1) = Take.src (E m c) := (StableHlo.after_of_writes_sub hostOps0_1 _ hostOps0_1_writes (by decide)).trans (w1_src m c)
theorem w2_dst : W2 m c (Proc.devRef .tc main_v3) = Host.dst (E m c) := (StableHlo.after_of_writes_sub hostOps0_1 _ hostOps0_1_writes (by decide)).trans (w1_dst m c)
theorem w2_inv : W2 m c (Proc.devRef .tc main_v12) = Host.invCol (E m c) := (StableHlo.after_of_writes_sub hostOps0_1 _ hostOps0_1_writes (by decide)).trans (w1_inv m c)
theorem w2_x : W2 m c (Proc.devRef .tc main_arg0) = X m c := (StableHlo.after_of_writes_sub hostOps0_1 _ hostOps0_1_writes (by decide)).trans (w1_x m c)

theorem w3_agg : W3 m c (Proc.devRef .tc main_v16) = Host.scatterRows (Host.dst (E m c)) (Take.takeRows (X m c) (Take.src (E m c))) :=
  (Host.scatter0 _).trans (by rw [w2_dst, w2_take])
theorem w3_src : W3 m c (Proc.devRef .tc main_v1) = Take.src (E m c) := (StableHlo.after_of_writes_sub hostOps0_2 _ hostOps0_2_writes (by decide)).trans (w2_src m c)
theorem w3_dst : W3 m c (Proc.devRef .tc main_v3) = Host.dst (E m c) := (StableHlo.after_of_writes_sub hostOps0_2 _ hostOps0_2_writes (by decide)).trans (w2_dst m c)
theorem w3_inv : W3 m c (Proc.devRef .tc main_v12) = Host.invCol (E m c) := (StableHlo.after_of_writes_sub hostOps0_2 _ hostOps0_2_writes (by decide)).trans (w2_inv m c)
theorem w3_x : W3 m c (Proc.devRef .tc main_arg0) = X m c := (StableHlo.after_of_writes_sub hostOps0_2 _ hostOps0_2_writes (by decide)).trans (w2_x m c)

/-- The first region's output: the first layer. -/
theorem w4_h1 : W4 m c (Proc.devRef .tc main_v17) = layer (E m c) (X m c) := by
  refine (W4_arr m c 3).trans ((Combine0.arrAt_out (atRefs (W3 m)) c).trans ?_)
  show Spec.combine (W3 m c (Proc.devRef .tc main_v16)) (W3 m c (Proc.devRef .tc main_arg0)) (W3 m c (Proc.devRef .tc main_v12)) = _
  rw [w3_agg, w3_x, w3_inv]
  rfl
theorem w4_src : W4 m c (Proc.devRef .tc main_v1) = Take.src (E m c) := (W4_of_ne m c main_v1 (by decide)).trans (w3_src m c)
theorem w4_dst : W4 m c (Proc.devRef .tc main_v3) = Host.dst (E m c) := (W4_of_ne m c main_v3 (by decide)).trans (w3_dst m c)
theorem w4_inv : W4 m c (Proc.devRef .tc main_v12) = Host.invCol (E m c) :=
  (W4_arr m c 2).trans (((Combine0.dat (atRefs (W3 m)) c).arrAt_in 2 rfl _).trans ((Combine0.dat_A (atRefs (W3 m)) c 2).trans (w3_inv m c)))
theorem w4_x : W4 m c (Proc.devRef .tc main_arg0) = X m c :=
  (W4_arr m c 1).trans (((Combine0.dat (atRefs (W3 m)) c).arrAt_in 1 rfl _).trans ((Combine0.dat_A (atRefs (W3 m)) c 1).trans (w3_x m c)))

/-! ## The second layer -/

theorem w5_take : W5 m c (Proc.devRef .tc main_v18) = Take.takeRows (layer (E m c) (X m c)) (Take.src (E m c)) :=
  (Host.take1 _).trans (by rw [w4_h1, w4_src])
theorem w5_dst : W5 m c (Proc.devRef .tc main_v3) = Host.dst (E m c) := (StableHlo.after_of_writes_sub hostOps1 _ hostOps1_writes (by decide)).trans (w4_dst m c)
theorem w5_inv : W5 m c (Proc.devRef .tc main_v12) = Host.invCol (E m c) := (StableHlo.after_of_writes_sub hostOps1 _ hostOps1_writes (by decide)).trans (w4_inv m c)
theorem w5_src : W5 m c (Proc.devRef .tc main_v1) = Take.src (E m c) := (StableHlo.after_of_writes_sub hostOps1 _ hostOps1_writes (by decide)).trans (w4_src m c)
theorem w5_h1 : W5 m c (Proc.devRef .tc main_v17) = layer (E m c) (X m c) := (StableHlo.after_of_writes_sub hostOps1 _ hostOps1_writes (by decide)).trans (w4_h1 m c)
theorem w5_x : W5 m c (Proc.devRef .tc main_arg0) = X m c := (StableHlo.after_of_writes_sub hostOps1 _ hostOps1_writes (by decide)).trans (w4_x m c)

theorem w6_agg : W6 m c (Proc.devRef .tc main_v21)
    = Host.scatterRows (Host.dst (E m c)) (Take.takeRows (layer (E m c) (X m c)) (Take.src (E m c))) :=
  (Host.scatter1 _).trans (by rw [w5_dst, w5_take])
theorem w6_dst : W6 m c (Proc.devRef .tc main_v3) = Host.dst (E m c) := (StableHlo.after_of_writes_sub hostOps1_1 _ hostOps1_1_writes (by decide)).trans (w5_dst m c)
theorem w6_inv : W6 m c (Proc.devRef .tc main_v12) = Host.invCol (E m c) := (StableHlo.after_of_writes_sub hostOps1_1 _ hostOps1_1_writes (by decide)).trans (w5_inv m c)
theorem w6_src : W6 m c (Proc.devRef .tc main_v1) = Take.src (E m c) := (StableHlo.after_of_writes_sub hostOps1_1 _ hostOps1_1_writes (by decide)).trans (w5_src m c)
theorem w6_h1 : W6 m c (Proc.devRef .tc main_v17) = layer (E m c) (X m c) := (StableHlo.after_of_writes_sub hostOps1_1 _ hostOps1_1_writes (by decide)).trans (w5_h1 m c)
theorem w6_x : W6 m c (Proc.devRef .tc main_arg0) = X m c := (StableHlo.after_of_writes_sub hostOps1_1 _ hostOps1_1_writes (by decide)).trans (w5_x m c)

/-- The second region's output: the second layer. -/
theorem w7_h2 : W7 m c (Proc.devRef .tc main_v22) = layer (E m c) (layer (E m c) (X m c)) := by
  refine (W7_arr m c 3).trans ((Combine1.arrAt_out (atRefs (W6 m)) c).trans ?_)
  show Spec.combine (W6 m c (Proc.devRef .tc main_v21)) (W6 m c (Proc.devRef .tc main_v17)) (W6 m c (Proc.devRef .tc main_v12)) = _
  rw [w6_agg, w6_h1, w6_inv]
  rfl
theorem w7_src : W7 m c (Proc.devRef .tc main_v1) = Take.src (E m c) := (W7_of_ne m c main_v1 (by decide)).trans (w6_src m c)
theorem w7_dst : W7 m c (Proc.devRef .tc main_v3) = Host.dst (E m c) := (W7_of_ne m c main_v3 (by decide)).trans (w6_dst m c)
theorem w7_inv : W7 m c (Proc.devRef .tc main_v12) = Host.invCol (E m c) :=
  (W7_arr m c 2).trans (((Combine1.dat (atRefs (W6 m)) c).arrAt_in 2 rfl _).trans ((Combine1.dat_A (atRefs (W6 m)) c 2).trans (w6_inv m c)))
theorem w7_h1 : W7 m c (Proc.devRef .tc main_v17) = layer (E m c) (X m c) :=
  (W7_arr m c 1).trans (((Combine1.dat (atRefs (W6 m)) c).arrAt_in 1 rfl _).trans ((Combine1.dat_A (atRefs (W6 m)) c 1).trans (w6_h1 m c)))
theorem w7_x : W7 m c (Proc.devRef .tc main_arg0) = X m c := (W7_of_ne m c main_arg0 (by decide)).trans (w6_x m c)

/-! ## The third layer -/

theorem w8_take : W8 m c (Proc.devRef .tc main_v23) = Take.takeRows (layer (E m c) (layer (E m c) (X m c))) (Take.src (E m c)) :=
  (Host.take2 _).trans (by rw [w7_h2, w7_src])
theorem w8_dst : W8 m c (Proc.devRef .tc main_v3) = Host.dst (E m c) := (StableHlo.after_of_writes_sub hostOps2 _ hostOps2_writes (by decide)).trans (w7_dst m c)
theorem w8_inv : W8 m c (Proc.devRef .tc main_v12) = Host.invCol (E m c) := (StableHlo.after_of_writes_sub hostOps2 _ hostOps2_writes (by decide)).trans (w7_inv m c)
theorem w8_h1 : W8 m c (Proc.devRef .tc main_v17) = layer (E m c) (X m c) := (StableHlo.after_of_writes_sub hostOps2 _ hostOps2_writes (by decide)).trans (w7_h1 m c)
theorem w8_h2 : W8 m c (Proc.devRef .tc main_v22) = layer (E m c) (layer (E m c) (X m c)) := (StableHlo.after_of_writes_sub hostOps2 _ hostOps2_writes (by decide)).trans (w7_h2 m c)
theorem w8_x : W8 m c (Proc.devRef .tc main_arg0) = X m c := (StableHlo.after_of_writes_sub hostOps2 _ hostOps2_writes (by decide)).trans (w7_x m c)

theorem w9_agg : W9 m c (Proc.devRef .tc main_v26)
    = Host.scatterRows (Host.dst (E m c)) (Take.takeRows (layer (E m c) (layer (E m c) (X m c))) (Take.src (E m c))) :=
  (Host.scatter2 _).trans (by rw [w8_dst, w8_take])
theorem w9_inv : W9 m c (Proc.devRef .tc main_v12) = Host.invCol (E m c) := (StableHlo.after_of_writes_sub hostOps2_1 _ hostOps2_1_writes (by decide)).trans (w8_inv m c)
theorem w9_h1 : W9 m c (Proc.devRef .tc main_v17) = layer (E m c) (X m c) := (StableHlo.after_of_writes_sub hostOps2_1 _ hostOps2_1_writes (by decide)).trans (w8_h1 m c)
theorem w9_h2 : W9 m c (Proc.devRef .tc main_v22) = layer (E m c) (layer (E m c) (X m c)) := (StableHlo.after_of_writes_sub hostOps2_1 _ hostOps2_1_writes (by decide)).trans (w8_h2 m c)
theorem w9_x : W9 m c (Proc.devRef .tc main_arg0) = X m c := (StableHlo.after_of_writes_sub hostOps2_1 _ hostOps2_1_writes (by decide)).trans (w8_x m c)

/-- The third region's output: the third layer. -/
theorem w10_h3 : W10 m c (Proc.devRef .tc main_v27) = layer (E m c) (layer (E m c) (layer (E m c) (X m c))) := by
  refine (W10_arr m c 3).trans ((Combine2.arrAt_out (atRefs (W9 m)) c).trans ?_)
  show Spec.combine (W9 m c (Proc.devRef .tc main_v26)) (W9 m c (Proc.devRef .tc main_v22)) (W9 m c (Proc.devRef .tc main_v12)) = _
  rw [w9_agg, w9_h2, w9_inv]
  rfl
theorem w10_h1 : W10 m c (Proc.devRef .tc main_v17) = layer (E m c) (X m c) := (W10_of_ne m c main_v17 (by decide)).trans (w9_h1 m c)
theorem w10_h2 : W10 m c (Proc.devRef .tc main_v22) = layer (E m c) (layer (E m c) (X m c)) :=
  (W10_arr m c 1).trans (((Combine2.dat (atRefs (W9 m)) c).arrAt_in 1 rfl _).trans ((Combine2.dat_A (atRefs (W9 m)) c 1).trans (w9_h2 m c)))
theorem w10_x : W10 m c (Proc.devRef .tc main_arg0) = X m c := (W10_of_ne m c main_arg0 (by decide)).trans (w9_x m c)

/-! ## The return -/

/-- The result buffer at the return is the kernel's function of the arguments as launched. -/
theorem w11_result : W11 m c (Proc.devRef .tc main_v32) = result (X m c) (E m c) :=
  (Host.stack _).trans (by rw [w10_x, w10_h1, w10_h2, w10_h3]; rfl)

/-- The idealized kernel's run with its result named: every weakly fair execution ends, the result buffer holds
    `result` of the arguments as launched, and the arguments are unchanged. -/
theorem run (ρ : Dev nD → PrngReg) :
    θ_run defs (onTc (τ := τ) (main (F := F))) ⟨m, fun _ => 0, ρ⟩ (fun r => ∀ c : Dev nD,
      r.2.mem ((c.tc : Thread nD τ).loc main_v32) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v32 (by decide))).trans (w11_result m c),
     (h c _ (mem_uc main_arg0 (by decide))).trans (W11_main_arg0 m c),
     (h c _ (mem_uc main_arg1 (by decide))).trans (W11_main_arg1 m c)⟩) (run_all m ρ)

end Cert.KernelIdeal.Value

end
-- ==== Proof.KI.Take.lean ====
/-
  The kernel's gather of source rows fills a row with a not-a-number wherever the source index, after negative
  indices are wrapped by the number of nodes, falls outside the node range; the reference's gather has no such fill.
  Under the precondition every source index `s` satisfies `-100000 ≤ s < 100000`. A negative one wraps to
  `s + 100000`, which lies in `[0, 100000)`; a non-negative one stays. So every wrapped index is in range, the
  fill's mask is all ones, and the kernel's gather IS the plain gather at the wrapped indices.
-/
import proofs.«421663_j70188355551855_1_alg».proof.Proof.Gen.KernelIdeal
import proofs.«421663_j70188355551855_1_alg».proof.Proof.Gen.Pre_finite_inputs
import proofs.«421663_j70188355551855_1_alg».proof.Proof.KI.TakeDefs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Take

open Cert.KernelIdeal Cert.KernelIdeal.Facts₀ Idealize.ShloMosaic

variable {F : FTy → Type} [FloatOps F]

/-- The wrap on one word: an index in `[-100000, 100000)`, moved up by 100000 when negative, lies in `[0, 99999]`. -/
theorem wrap_word (w : BitVec 32) (h : (-100000 : Int) ≤ w.toInt ∧ w.toInt < 100000) :
    (0 : Int) ≤ (Scalar.select (IntOp.cmpi .slt w 0#32) (IntOp.addi w 100000#32) w).toInt ∧
    (Scalar.select (IntOp.cmpi .slt w 0#32) (IntOp.addi w 100000#32) w).toInt ≤ 99999 := by
  have h0 : (0#32 : BitVec 32).toInt = 0 := by decide
  have hk : (100000#32 : BitVec 32).toInt = 100000 := by decide
  unfold Scalar.select
  by_cases hc : IntOp.cmpi .slt w 0#32 = (1 : BitVec 1)
  · rw [if_pos hc]
    have hlt : w.toInt < 0 := by have := IntOp.cmpi_slt.1 (show _ = 1#1 from hc); rwa [h0] at this
    simp only [IntOp.addi]
    rw [BitVec.toInt_add, hk, Int.bmod_def]
    omega
  · rw [if_neg hc]
    have : ¬ w.toInt < 0 := fun h' => hc (show _ = 1#1 from IntOp.cmpi_slt.2 (by rw [h0]; exact h'))
    omega

/-- The wrapped index at an edge is the one-word wrap of the source index there. -/
theorem wrapped_apply (s : IVec S1600000 32) (e : S1600000.Idx) :
    wrapped s e = Scalar.select (IntOp.cmpi .slt (s e) 0#32) (IntOp.addi (s e) 100000#32) (s e) := rfl

/-- Every wrapped index is a node. -/
theorem wrapped_in_range (s : IVec S1600000 32)
    (hs : ∀ e : S1600000.Idx, (-100000 : Int) ≤ (s e).toInt ∧ (s e).toInt < 100000) (e : S1600000.Idx) :
    (0 : Int) ≤ (wrapped s e).toInt ∧ (wrapped s e).toInt ≤ 99999 := by
  rw [wrapped_apply]; exact wrap_word _ (hs e)

/-- Every start index is a node: it is a wrapped index. -/
theorem startIdx_in_range (s : IVec S1600000 32)
    (hs : ∀ e : S1600000.Idx, (-100000 : Int) ≤ (s e).toInt ∧ (s e).toInt < 100000) (i : S1600000x1.Idx) :
    (0 : Int) ≤ (startIdx s i).toInt ∧ (startIdx s i).toInt ≤ 99999 := by
  unfold startIdx broadcastInDim
  exact wrapped_in_range s hs _

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; rfl
    rw [List.foldl_cons, ha]
    exact foldl_andi_ones f l fun n hn => h n (List.mem_cons_of_mem _ hn)

/-- The range test holds at every edge. -/
theorem inRange_eq_one (s : IVec S1600000 32)
    (hs : ∀ e : S1600000.Idx, (-100000 : Int) ≤ (s e).toInt ∧ (s e).toInt < 100000) (e : S1600000.Idx) :
    inRange s e = 1#1 := by
  unfold inRange
  rw [Host.reduce_eq_foldl]
  refine foldl_andi_ones _ _ fun i _ => ?_
  show IntOp.andi (IntOp.cmpi .sge (startIdx s i) 0#32) (IntOp.cmpi .sle (startIdx s i) 99999#32) = 1#1
  have h0 : (0#32 : BitVec 32).toInt = 0 := by decide
  have hk : (99999#32 : BitVec 32).toInt = 99999 := by decide
  obtain ⟨hlo, hhi⟩ := startIdx_in_range s hs i
  rw [IntOp.andi_eq_one, IntOp.cmpi_sge, IntOp.cmpi_sle, h0, hk]
  exact ⟨hlo, hhi⟩

/-- With every index in `[-100000, 100000)` the fill never applies. -/
theorem takeRows_eq_gather (h : FVec F S100000x128 .f32) (s : IVec S1600000 32)
    (hs : ∀ e : S1600000.Idx, (-100000 : Int) ≤ (s e).toInt ∧ (s e).toInt < 100000) :
    takeRows h s = Host.gather gather_S100000x128_S1600000x1_S1600000x128_1_0_n_n_0_1_1128 h (startIdx s) := by
  funext i
  have hc : broadcastInDim S1600000x128 ![0] bcast_S1600000_S1600000x128_0 (inRange s) i = (1 : BitVec 1) := by
    unfold broadcastInDim; exact inRange_eq_one s hs _
  unfold takeRows
  rw [ValueIdx.select_apply]
  unfold Scalar.select
  rw [if_pos hc]

/-- The precondition, read at an edge: its source index lies in `[-100000, 100000)`. -/
theorem src_in_range [Cert.Pre_finite_inputs.Facts] (x : FVec F S100000x128 .f32) (e : IVec S2x1600000 32)
    (hpre : Cert.Pre_finite_inputs.fn (F := F) x e = fun _ => 1#1) :
    ∀ i : S1600000.Idx, (-100000 : Int) ≤ (src e i).toInt ∧ (src e i).toInt < 100000 := by
  intro i
  have h := congrFun hpre ValueIdx.ix0
  dsimp only [Cert.Pre_finite_inputs.fn] at h
  obtain ⟨-, h13⟩ := IntOp.andi_eq_one.1 h
  haveI : Subsingleton Cert.Pre_finite_inputs.S_.Idx := ⟨fun a b => funext fun d => d.elim0⟩
  have h12 := Host.reduce_andi_all _ _ _ _ _ h13 i
  obtain ⟨h7, h11⟩ := IntOp.andi_eq_one.1 h12
  have hlo : (4294867296#32 : BitVec 32).toInt = -100000 := by decide
  have hhi : (100000#32 : BitVec 32).toInt = 100000 := by decide
  have h7' := IntOp.cmpi_sge.1 h7
  have h11' := IntOp.cmpi_slt.1 h11
  exact ⟨hlo ▸ h7', hhi ▸ h11'⟩

end Cert.KernelIdeal.Take

end
-- ==== Proof.RefRun.lean ====
/-
  The reference's run and its stages, brought in for the modules that compare the kernel's result with them.
-/
import proofs.«421663_j70188355551855_1_alg».proof.Proof.Gen.ReferenceIdeal.Run
import proofs.«421663_j70188355551855_1_alg».proof.Proof.Gen.ReferenceIdeal.Read
-- ==== Proof.Bridge.lean ====
/-
  The idealized kernel's function of its arguments is the reference's, wherever every source index lies in
  `[-100000, 100000)`.

  Both programs apply the same layer three times and stack the results. The kernel's layer differs from the
  reference's in two spellings only. Its gather of source rows carries a fill for out-of-range indices, which under
  the index bound never applies. And it makes the reciprocal degree column by reshaping the degree vector where the
  reference broadcasts it, which is the same column. With the two rewritten, a layer of the kernel and a layer of the
  reference are the same operations on the same operands, and so are the stacks.
-/
import proofs.«421663_j70188355551855_1_alg».proof.Proof.KI.Value
import proofs.«421663_j70188355551855_1_alg».proof.Proof.KI.Take
import proofs.«421663_j70188355551855_1_alg».proof.Proof.RefRun

set_option maxRecDepth 16384

noncomputable section

namespace Cert.Bridge

open Cert.KernelIdeal
open Idealize.ShloMosaic

variable {F : FTy → Type} [FloatOps F]

/-- The kernel's layer with the fill dropped and the column made by a broadcast. -/
theorem layer_plain (e : IVec S2x1600000 32)
    (hs : ∀ i : S1600000.Idx, (-100000 : Int) ≤ (Take.src e i).toInt ∧ (Take.src e i).toInt < 100000)
    (h : FVec F S100000x128 .f32) :
    Value.layer e h
      = mulf (addf (Host.scatterRows (Host.dst e)
            (Host.gather gather_S100000x128_S1600000x1_S1600000x128_1_0_n_n_0_1_1128 h (Take.startIdx (Take.src e)))) h)
          (broadcastInDim S100000x128 ![0, 1] Spec.colBcast (broadcastInDim S100000x1 ![0] Spec.vecCol (Host.invDeg e))) := by
  unfold Value.layer Spec.combine Host.invCol
  rw [Take.takeRows_eq_gather h _ hs, Spec.column_eq]

variable (x : FVec F S100000x128 .f32) (e : IVec S2x1600000 32)
  (hs : ∀ i : S1600000.Idx, (-100000 : Int) ≤ (Take.src e i).toInt ∧ (Take.src e i).toInt < 100000)

include hs

/-- The first layer. -/
theorem layer1 : Value.layer e x = Cert.ReferenceIdeal.Read.val_main_v25 x e := by
  rw [layer_plain e hs]
  rfl

/-- The second layer, over the reference's first. -/
theorem layer2 : Value.layer e (Cert.ReferenceIdeal.Read.val_main_v25 x e) = Cert.ReferenceIdeal.Read.val_main_v39 x e := by
  rw [layer_plain e hs]
  rfl

/-- The third layer, over the reference's second. -/
theorem layer3 : Value.layer e (Cert.ReferenceIdeal.Read.val_main_v39 x e) = Cert.ReferenceIdeal.Read.val_main_v53 x e := by
  rw [layer_plain e hs]
  rfl

/-- The two programs compute one function of the arguments. -/
theorem result_eq : Value.result x e = Cert.ReferenceIdeal.Read.val_main_v58 x e := by
  unfold Value.result
  rw [layer1 x e hs, layer2 x e hs, layer3 x e hs]
  rfl

end Cert.Bridge

end
-- ==== Proof.lean ====
/-
  The certificate of the layered mean aggregation over a graph: three layers of
  `h ← (sum of h over the edges into a node + h) / (1 + number of edges into the node)`, the per-node combine a kernel
  region, the edge gather and scatter host operations, against the reference that does all of it on the host.

  The statement carries, beside the finiteness of the features, that every source index lies in `[-100000, 100000)`:
  the range in which the reference's own row lookup indexes inside the array (a negative index counting from the end).
  Outside it the kernel's lookup fills the row with a not-a-number where the reference clamps the index, and the two
  results differ.

  The frames of the two kernel programs are the run of their main function through one valuation of the core's buffers
  (`Run`), which uses nothing of the precondition: every host operation is total and no region addresses memory by a
  value. The reference's frame is its run with the result dropped. The idealization rewrote nothing. The value claim:
  the kernel's result is `Value.result` of its arguments, the reference's is its last stage, and under the index bound
  the two are one function (`Bridge.result_eq`).
-/
import proofs.«421663_j70188355551855_1_alg».proof.Defs
import proofs.«421663_j70188355551855_1_alg».proof.Proof.Gen.Kernel
import proofs.«421663_j70188355551855_1_alg».proof.Proof.Gen.KernelIdeal
import proofs.«421663_j70188355551855_1_alg».proof.Proof.Gen.ReferenceIdeal
import proofs.«421663_j70188355551855_1_alg».proof.Proof.Gen.Pre_finite_inputs
import proofs.«421663_j70188355551855_1_alg».proof.Proof.K.Run
import proofs.«421663_j70188355551855_1_alg».proof.Proof.KI.Run
import proofs.«421663_j70188355551855_1_alg».proof.Proof.KI.Value
import proofs.«421663_j70188355551855_1_alg».proof.Proof.KI.Take
import proofs.«421663_j70188355551855_1_alg».proof.Proof.RefRun
import proofs.«421663_j70188355551855_1_alg».proof.Proof.Bridge

noncomputable section

namespace Cert.Proof

open Idealize.ShloMosaic Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with equal results: the kernel's
    run names its result `Value.result` of the arguments, the reference's run names its last stage, and the index bound
    read off the precondition makes them equal. -/
theorem algebraic : Cert.algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2]
  exact (Cert.Bridge.result_eq _ _ (Cert.KernelIdeal.Take.src_in_range _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
